-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128x128 : Shape := ⟨3, ![2048, 128, 128]⟩
abbrev S128x128 : Shape := ⟨2, ![128, 128]⟩
abbrev S_ : Shape := ⟨0, ![]⟩

class Facts : Prop where
  bcast_S_S2048x128x128 : S_.BroadcastsInDim S2048x128x128 (![] : Fin 0 → Fin S2048x128x128.rank)
  reducesTo_S2048x128x128_S_d0_1_2 : S2048x128x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S2048x128x128 .f32) (main_arg1 : FVec F S128x128 .f32) (main_arg2 : FVec F S128x128 .f32) (main_arg3 : FVec F S128x128 .f32) : IVec S_ 1 :=
  let main_v0 : FVec F S2048x128x128 .f32 := Host.absf main_arg0
  let main_cst : FVec F S_ .f32 := constant S_ .f32 0x7F800000#32
  let main_v1 : FVec F S2048x128x128 .f32 := broadcastInDim S2048x128x128 ![] bcast_S_S2048x128x128 main_cst
  let main_v2 : IVec S2048x128x128 1 := cmpf .olt main_v0 main_v1
  let main_c : IVec S_ 1 := constantI S_ 1 1#1
  let main_v3 : IVec S_ 1 := (fun x v => Host.reduce IntOp.andi x v reducesTo_S2048x128x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S2048x128x128 : Shape := ⟨3, ![2048, 128, 128]⟩
abbrev S128x128 : Shape := ⟨2, ![128, 128]⟩
abbrev S384x128 : Shape := ⟨2, ![384, 128]⟩
abbrev S128x384 : Shape := ⟨2, ![128, 384]⟩
abbrev S64x128x128 : Shape := ⟨3, ![64, 128, 128]⟩
abbrev S8192x128 : Shape := ⟨2, ![8192, 128]⟩
abbrev S8192x384 : Shape := ⟨2, ![8192, 384]⟩
abbrev S1x128x128 : Shape := ⟨3, ![1, 128, 128]⟩
abbrev S64x128 : Shape := ⟨2, ![64, 128]⟩
abbrev S64x128x1 : Shape := ⟨3, ![64, 128, 1]⟩

abbrev nBuf : Space → Nat
  | .hbm => 8
  | .vmem => 5
  | .smem => 0
  | _ => 0

abbrev bufTy : (tb : Table) → Fin (tcTables nBuf tb) → BufTy
  | .hbm, ⟨0, _⟩ => ⟨S2048x128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S384x128, .f32⟩
  | .hbm, ⟨5, _⟩ => ⟨S128x384, .f32⟩
  | .hbm, ⟨6, _⟩ => ⟨S128x384, .bf16⟩
  | .hbm, ⟨7, _⟩ => ⟨S2048x128x128, .f32⟩
  | .local _ .vmem, ⟨0, _⟩ => ⟨S64x128x128, .f32⟩
  | .local _ .vmem, ⟨1, _⟩ => ⟨S64x128x128, .f32⟩
  | .local _ .vmem, ⟨2, _⟩ => ⟨S128x384, .bf16⟩
  | .local _ .vmem, ⟨3, _⟩ => ⟨S64x128x128, .f32⟩
  | .local _ .vmem, ⟨4, _⟩ => ⟨S64x128x128, .f32⟩
  | _, _ => ⟨S2048x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S128x128_S128x128_S128x128_S384x128_d0 : Shape.Concatenates [S128x128, S128x128, S128x128] S384x128 0
  transposes_S384x128_S128x384_1_0 : S384x128.Transposes [1, 0] S128x384
  bitsLt_bf16_f32 : FTy.bits .bf16 < FTy.bits .f32
  inb_S64x128x128_S64x128x128_0_0_0 : ∀ a, (![0, 0, 0] : Fin 3 → Nat) a + S64x128x128.size a ≤ S64x128x128.size a
  h_S64x128x128 : 0 < S64x128x128.numel
  shapeCasts_S64x128x128_S8192x128 : S64x128x128.ShapeCasts S8192x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S8192x384_o0_0_S8192x128 : S8192x384.Slices ![0, 0] S8192x128
  shapeCasts_S8192x128_S64x128x128 : S8192x128.ShapeCasts S64x128x128
  slices_S8192x384_o0_128_S8192x128 : S8192x384.Slices ![0, 128] S8192x128
  slices_S8192x384_o0_256_S8192x128 : S8192x384.Slices ![0, 256] S8192x128
  iota_S128x128_d0_w32 : S128x128.Iotas .tc 32 [0]
  iota_S128x128_d1_w32 : S128x128.Iotas .tc 32 [1]
  shapeCasts_S128x128_S1x128x128 : S128x128.ShapeCasts S1x128x128
  broadcasts_S1x128x128_S64x128x128 : S1x128x128.Broadcasts S64x128x128
  reduces_S64x128x128_S64x128 : S64x128x128.Reduces [2] S64x128
  shapeCasts_S64x128_S64x128x1 : S64x128.ShapeCasts S64x128x1
  broadcasts_S64x128x1_S64x128x128 : S64x128x1.Broadcasts S64x128x128
  dot_S8192x128_S128x384_S8192x384_1_0_0_1_n_n_wf : DotDims.WF S8192x128 S128x384 S8192x384 [1] [0] [0] [1] [] []
  dot_S64x128x128_S64x128x128_S64x128x128_2_2_1_1_0_0_wf : DotDims.WF S64x128x128 S64x128x128 S64x128x128 [2] [2] [1] [1] [0] [0]
  dot_S64x128x128_S64x128x128_S64x128x128_2_1_1_2_0_0_wf : DotDims.WF S64x128x128 S64x128x128 S64x128x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x128.size a ≤ S2048x128x128.size a
  hwx0_0 : ∀ i : grid0.Coords, EltTy.bits .f32 = 32 ∨ (Rect.block (s := S2048x128x128) S64x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .bf16 = 32 ∨ (Rect.block (s := S128x384) S128x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128x128.size a ≤ S2048x128x128.size a
  hwx0_2 : ∀ i : grid0.Coords, EltTy.bits .f32 = 32 ∨ (Rect.block (s := S2048x128x128) S64x128x128.size (cc0_transform_2 i) (hinb0_2 i)).WholeWords (EltTy.packing .f32)

variable [Facts₀]

def dot_S8192x128_S128x384_S8192x384_1_0_0_1_n_n : DotDims S8192x128 S128x384 S8192x384 where
  lhsContracting := [1]
  rhsContracting := [0]
  lhsNonContracting := [0]
  rhsNonContracting := [1]
  lhsBatch := []
  rhsBatch := []
  wf := dot_S8192x128_S128x384_S8192x384_1_0_0_1_n_n_wf
def dot_S64x128x128_S64x128x128_S64x128x128_2_2_1_1_0_0 : DotDims S64x128x128 S64x128x128 S64x128x128 where
  lhsContracting := [2]
  rhsContracting := [2]
  lhsNonContracting := [1]
  rhsNonContracting := [1]
  lhsBatch := [0]
  rhsBatch := [0]
  wf := dot_S64x128x128_S64x128x128_S64x128x128_2_2_1_1_0_0_wf
def dot_S64x128x128_S64x128x128_S64x128x128_2_1_1_2_0_0 : DotDims S64x128x128 S64x128x128 S64x128x128 where
  lhsContracting := [2]
  rhsContracting := [1]
  lhsNonContracting := [1]
  rhsNonContracting := [2]
  lhsBatch := [0]
  rhsBatch := [0]
  wf := dot_S64x128x128_S64x128x128_S64x128x128_2_1_1_2_0_0_wf

abbrev win0_0 : Pipeline.Window sig grid0 :=
  Pipeline.Window.ofSpec (Memref.whole main_arg0) S64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x128x128 : Shape := ⟨3, ![2048, 128, 128]⟩
abbrev S128x128 : Shape := ⟨2, ![128, 128]⟩
abbrev S_ : Shape := ⟨0, ![]⟩
abbrev S2048x128 : Shape := ⟨2, ![2048, 128]⟩
abbrev S2048x128x1 : Shape := ⟨3, ![2048, 128, 1]⟩

abbrev nBuf : Space → Nat
  | .hbm => 42
  | .vmem => 0
  | .smem => 0
  | _ => 0

abbrev bufTy : (tb : Table) → Fin (tcTables nBuf tb) → BufTy
  | .hbm, ⟨0, _⟩ => ⟨S2048x128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S2048x128x128, .f32⟩
  | .hbm, ⟨5, _⟩ => ⟨S2048x128x128, .f32⟩
  | .hbm, ⟨6, _⟩ => ⟨S2048x128x128, .f32⟩
  | .hbm, ⟨7, _⟩ => ⟨S2048x128x128, .f32⟩
  | .hbm, ⟨8, _⟩ => ⟨S_, .f32⟩
  | .hbm, ⟨9, _⟩ => ⟨S2048x128x128, .f32⟩
  | .hbm, ⟨10, _⟩ => ⟨S2048x128x128, .f32⟩
  | .hbm, ⟨11, _⟩ => ⟨S_, .i1⟩
  | .hbm, ⟨12, _⟩ => ⟨S128x128, .i1⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S_, .i1⟩
  | .hbm, ⟨20, _⟩ => ⟨S128x128, .i1⟩
  | .hbm, ⟨21, _⟩ => ⟨S128x128, .i1⟩
  | .hbm, ⟨22, _⟩ => ⟨S_, .f32⟩
  | .hbm, ⟨23, _⟩ => ⟨S_, .f32⟩
  | .hbm, ⟨24, _⟩ => ⟨S2048x128x128, .i1⟩
  | .hbm, ⟨25, _⟩ => ⟨S2048x128x128, .f32⟩
  | .hbm, ⟨26, _⟩ => ⟨S2048x128x128, .f32⟩
  | .hbm, ⟨27, _⟩ => ⟨S_, .f32⟩
  | .hbm, ⟨28, _⟩ => ⟨S2048x128, .f32⟩
  | .hbm, ⟨29, _⟩ => ⟨S_, .f32⟩
  | .hbm, ⟨30, _⟩ => ⟨S2048x128, .f32⟩
  | .hbm, ⟨31, _⟩ => ⟨S2048x128, .f32⟩
  | .hbm, ⟨32, _⟩ => ⟨S2048x128x1, .f32⟩
  | .hbm, ⟨33, _⟩ => ⟨S2048x128x128, .f32⟩
  | .hbm, ⟨34, _⟩ => ⟨S2048x128x128, .f32⟩
  | .hbm, ⟨35, _⟩ => ⟨S2048x128x128, .f32⟩
  | .hbm, ⟨36, _⟩ => ⟨S_, .f32⟩
  | .hbm, ⟨37, _⟩ => ⟨S2048x128, .f32⟩
  | .hbm, ⟨38, _⟩ => ⟨S2048x128x1, .f32⟩
  | .hbm, ⟨39, _⟩ => ⟨S2048x128x128, .f32⟩
  | .hbm, ⟨40, _⟩ => ⟨S2048x128x128, .f32⟩
  | .hbm, ⟨41, _⟩ => ⟨S2048x128x128, .f32⟩
  | _, _ => ⟨S2048x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S2048x128x128 : S_.BroadcastsInDim S2048x128x128 (![] : Fin 0 → Fin S2048x128x128.rank)
  bcast_S_S128x128 : S_.BroadcastsInDim S128x128 (![] : Fin 0 → Fin S128x128.rank)
  bcast_S128x128_S2048x128x128_1_2 : S128x128.BroadcastsInDim S2048x128x128 (![1, 2] : Fin 2 → Fin S2048x128x128.rank)
  reducesTo_S2048x128x128_S2048x128_d2 : S2048x128x128.ReducesTo [2] S2048x128
  h_S_ : 0 < S_.numel
  bcast_S_S2048x128 : S_.BroadcastsInDim S2048x128 (![] : Fin 0 → Fin S2048x128.rank)
  bcast_S2048x128_S2048x128x1_0_1 : S2048x128.BroadcastsInDim S2048x128x1 (![0, 1] : Fin 2 → Fin S2048x128x1.rank)
  bcast_S2048x128x1_S2048x128x128_0_1_2 : S2048x128x1.BroadcastsInDim S2048x128x128 (![0, 1, 2] : Fin 3 → Fin S2048x128x128.rank)
  dot_S2048x128x128_S128x128_S2048x128x128_2_1_01_0_n_n_wf : DotDims.WF S2048x128x128 S128x128 S2048x128x128 [2] [1] [0, 1] [0] [] []
  dot_S2048x128x128_S2048x128x128_S2048x128x128_2_2_1_1_0_0_wf : DotDims.WF S2048x128x128 S2048x128x128 S2048x128x128 [2] [2] [1] [1] [0] [0]
  dot_S2048x128x128_S2048x128x128_S2048x128x128_2_1_1_2_0_0_wf : DotDims.WF S2048x128x128 S2048x128x128 S2048x128x128 [2] [1] [1] [2] [0] [0]

variable [Facts₀]

def dot_S2048x128x128_S128x128_S2048x128x128_2_1_01_0_n_n : DotDims S2048x128x128 S128x128 S2048x128x128 where
  lhsContracting := [2]
  rhsContracting := [1]
  lhsNonContracting := [0, 1]
  rhsNonContracting := [0]
  lhsBatch := []
  rhsBatch := []
  wf := dot_S2048x128x128_S128x128_S2048x128x128_2_1_01_0_n_n_wf
def dot_S2048x128x128_S2048x128x128_S2048x128x128_2_2_1_1_0_0 : DotDims S2048x128x128 S2048x128x128 S2048x128x128 where
  lhsContracting := [2]
  rhsContracting := [2]
  lhsNonContracting := [1]
  rhsNonContracting := [1]
  lhsBatch := [0]
  rhsBatch := [0]
  wf := dot_S2048x128x128_S2048x128x128_S2048x128x128_2_2_1_1_0_0_wf
def dot_S2048x128x128_S2048x128x128_S2048x128x128_2_1_1_2_0_0 : DotDims S2048x128x128 S2048x128x128 S2048x128x128 where
  lhsContracting := [2]
  rhsContracting := [1]
  lhsNonContracting := [1]
  rhsNonContracting := [2]
  lhsBatch := [0]
  rhsBatch := [0]
  wf := dot_S2048x128x128_S2048x128x128_S2048x128x128_2_1_1_2_0_0_wf

class Facts : Prop extends Facts₀ where

variable [Facts]
-- ==== Proof.LibNary3.lean ====
/-
  A general lemma about the host operation builder of several operands (`StableHlo.nary`), for a literal
  family of THREE references — a `stablehlo.concatenate` of three operands prints so.
-/
import Idealize.ShloMosaic.Lib.StableHlo.Run

noncomputable section

namespace Idealize.ShloMosaic.StableHlo

open Idealize.SL.Sem

variable {τ : Topo} {sig : RefSig} {Val : EltTy → Type}
variable {x a b y : Ref sig .tc}

/-- `nary` over a literal family of three references writes, at its result reference, its function of the three
    operands' contents, each read AT ITS OWN REFERENCE: `Fin.cons (F ↑x) (Fin.cons (F ↑a) (Fin.cons (F ↑b) …))` in place
    of `fun k => F ↑(![x, a, b] k)`. Under the binder the reference `![x, a, b] k` is no literal, so no result lemma
    of an earlier operation applies to it; in this form the rewriting of the operands' contents goes on, and the
    function's body with `u k` read as operand `k`'s term is the result by β and `Fin.cons` at the literals 0, 1, 2.
    The three-operand companion of the library's `nary4_result`. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  (nary_result ![x, a, b] y f hxs hy F).trans (congrArg f (funext fun k => by fin_cases k <;> rfl))

/-- `nary3_result` with the result reference un-indexed, for one rewriting pass over a whole stretch. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.FrameK.lean ====
import proofs.«409954_j19971597926571_3_alg».proof.Proof.Gen.Kernel.Launch
import proofs.«409954_j19971597926571_3_alg».proof.Proof.Gen.Kernel.Skeleton
import proofs.«409954_j19971597926571_3_alg».proof.Proof.Gen.Kernel.Points
import proofs.«409954_j19971597926571_3_alg».proof.Proof.LibNary3
import Idealize.ShloMosaic.Lib.Pipeline.FrameBody
import Idealize.ShloMosaic.Lib.Ring
import Idealize.ShloMosaic.Lib.Tactic

/-!
  The frame of the program `Cert.Kernel`: its one region is entered after three host operations
  (a concatenation of three weight matrices along the rows, a transposition, a change of float format),
  runs a grid of 32 points over three windows, and at each point the body loads its two input blocks whole,
  computes one value from them and stores it over the whole output block.

  Stated here: what the buffers hold when the region is entered (`V`), what the body leaves in the output
  block as a function of the two input blocks (`out0_2`), the proof data of the pipeline (`dats`), the run to
  the library's frame post (`run_main`) and the argument arrays unchanged at the end (`frame`).
-/

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- What core `c`'s buffer `b` holds when the region is entered: the launch contents carried through the three
    host operations in order. -/
abbrev V (c : Dev nD) (b : Ref sig .tc) : Buf (Elt F) ((c : Thread nD τ).loc b) := StableHlo.after hostOps0 (fun b => m (c, b)) b

/-- None of the three host operations allocates a buffer. -/
theorem hostOps0_fresh : (hostOps0 : List (HloOp τ sig (Elt F))).Forall fun op => op.fresh = ∅ := by
  simp only [List.Forall]; repeat' constructor

/-- @main is the three host operations followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write `main_v0`, `main_v1` and `main_v2`, one each: any other buffer is found as launched. -/
theorem V_of_ne (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, Finset.mem_singleton]
    exact ⟨StableHlo.devRef_ne_of_ne h0, StableHlo.devRef_ne_of_ne h1, StableHlo.devRef_ne_of_ne h2⟩))

theorem V_main_arg0 (c : Dev nD) : V m c main_arg0 = m ((c : Thread nD τ).loc main_arg0) :=
  V_of_ne m c main_arg0 (by decide) (by decide) (by decide)
theorem V_main_arg1 (c : Dev nD) : V m c main_arg1 = m ((c : Thread nD τ).loc main_arg1) :=
  V_of_ne m c main_arg1 (by decide) (by decide) (by decide)
theorem V_main_arg2 (c : Dev nD) : V m c main_arg2 = m ((c : Thread nD τ).loc main_arg2) :=
  V_of_ne m c main_arg2 (by decide) (by decide) (by decide)
theorem V_main_arg3 (c : Dev nD) : V m c main_arg3 = m ((c : Thread nD τ).loc main_arg3) :=
  V_of_ne m c main_arg3 (by decide) (by decide) (by decide)

/-- The second window's array when the region is entered: the three weight matrices stacked along the rows,
    transposed, and brought to the narrower float format. -/
theorem V_main_v2 (c : Dev nD) :
    (V m c main_v2 : S128x384.Idx → Elt F .bf16)
      = truncf .bf16 (transpose S128x384 [1, 0]
          (concatenate S384x128 0 [⟨S128x128, m ((c : Thread nD τ).loc main_arg1)⟩, ⟨S128x128, m ((c : Thread nD τ).loc main_arg2)⟩,
            ⟨S128x128, m ((c : Thread nD τ).loc main_arg3)⟩] concatenates_S128x128_S128x128_S128x128_S384x128_d0)
          transposes_S384x128_S128x384_1_0) bitsLt_bf16_f32 := by
  dsimp only [V, hostOps0]
  simp only [StableHlo.after_cons, StableHlo.after_nil]
  rw [StableHlo.unary_result, StableHlo.unary_result, StableHlo.nary3_result]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first window's staging buffer holds its block at every point, for any proof data over the arrays `V` whose
    body leaves that block in place: a fetch puts the block there, and the window is fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  refine (dat.before_in_eq_fetched 0 rfl (fun _ => rfl) (fun _ _ _ => rfl) (fun t => ?_) t d).trans ?_
  · rw [hafter]; unfold Dat.blockOf iblk; rw [hA]; try rfl
  · unfold Dat.fetched Dat.blockOf iblk; rw [hA]; try rfl

/-- The second window's staging buffer holds its block at every point, although it is fetched at the first point
    only: its block index never moves, so the block fetched first is every later point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t := by
  refine (dat.before_in_eq_fetched 1 rfl (fun _ => rfl) (fun _ _ _ => rfl) (fun t => ?_) t d).trans ?_
  · rw [hafter]; unfold Dat.blockOf iblk; rw [hA]; try rfl
  · unfold Dat.fetched Dat.blockOf iblk; rw [hA]; try rfl

/-! ## The argument arrays at the end, from a run to the library's frame post -/

/-- For any proof data over the arrays `V`, a run to the frame post leaves the four argument arrays as launched:
    `main_arg0` is the first window's array, an input, which ends as the region found it; the three weight
    matrices are staged by no window and end as the region found them; and the region found all four as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c)⟩) h

/-! ## The body's accesses -/

/-- The whole of a 64 × 128 × 128 buffer: what the body loads of the first staging buffer, -/
abbrev r0_0 : Rect S64x128x128 := Rect.unit (s := S64x128x128) ![0, 0, 0] S64x128x128.size inb_S64x128x128_S64x128x128_0_0_0
/-- the whole of a 128 × 384 buffer: what it loads of the second, -/
abbrev r0_1 : Rect S128x384 := Rect.unit (s := S128x384) ![0, 0] S128x384.size inb_S128x384_S128x384_0_0
/-- and the whole of a 64 × 128 × 128 buffer again: what it stores over in the third. -/
abbrev r0_2 : Rect S64x128x128 := Rect.unit (s := S64x128x128) ![0, 0, 0] S64x128x128.size inb_S64x128x128_S64x128x128_0_0_0

/-! ## What the body leaves in the output window's buffer -/

/-- The output staging buffer after the body, from the two input blocks: its one store, of the body's one computed
    value, over the whole buffer. -/
def out0_2 (x0 : Vec F S64x128x128 .f32) (x1 : Vec F S128x384 .bf16) : Vec F S64x128x128 .f32 :=
  View.canon [⟨r0_2, k0_pay1 (View.ld x0 r0_0) (View.ld x1 r0_1)⟩]

/-- The one store's rectangle is the whole buffer, so it covers every index. -/
theorem cover0_2 (p0 : Vec F S64x128x128 .f32) (y : S64x128x128.Idx) :
    ∃ pc ∈ ([⟨r0_2, p0⟩] : List (View.Piece (Elt F) S64x128x128 .f32)), y ∈ pc.1.set :=
  View.cover_of_tiled [⟨r0_2, p0⟩] S64x128x128.size (by rfl) y

/-! ## The body's triple -/

set_option maxHeartbeats 1000000 in
/-- The kernel body on whole staging memrefs — the two inputs' at read contents `x0`, `x1`, the output's at any
    contents — runs to the continuation holding the inputs' as they were and the output's at `out0_2 x0 x1`. The
    body also loads the output buffer before it stores: that load reads whatever the buffer held and its value is
    used nowhere; after the store every index holds the stored value, the store's rectangle being the whole buffer. -/
theorem sound_kernel (c : Dev nD) (E : Set ℕ) (i : grid0.Coords)
    (arg1 : Memref sig .tc .vmem S64x128x128 .f32) (harg1 : arg1.IsWhole)
    (arg2 : Memref sig .tc .vmem S128x384 .bf16) (harg2 : arg2.IsWhole)
    (arg3 : Memref sig .tc .vmem S64x128x128 .f32) (harg3 : arg3.IsWhole)
    (x0 : Vec F S64x128x128 .f32) (x1 : Vec F S128x384 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__attn_kernel i arg1 harg1 arg2 harg2 arg3 harg3) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data of the pipeline on core `c`: the arrays as the region finds them; after the body at point `t`
    each input's buffer still at its block and the output's at `out0_2` of the two input blocks; the invariant the
    scoped rest and the generator register, untouched; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (the definition projected, `V` left folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`: the invariant, what the core owes, and the three current staging
    buffers whole, each at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the same, the buffers at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, the output's holds something, so the body's
    triple applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: every weakly fair execution of @main terminates, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.FrameKI.lean ====
import proofs.«409954_j19971597926571_3_alg».proof.Proof.Gen.KernelIdeal.Launch
import proofs.«409954_j19971597926571_3_alg».proof.Proof.Gen.KernelIdeal.Skeleton
import proofs.«409954_j19971597926571_3_alg».proof.Proof.Gen.KernelIdeal.Points
import proofs.«409954_j19971597926571_3_alg».proof.Proof.LibNary3
import Idealize.ShloMosaic.Lib.Pipeline.FrameBody
import Idealize.ShloMosaic.Lib.Ring
import Idealize.ShloMosaic.Lib.Tactic

/-!
  The frame of the program `Cert.KernelIdeal`: its one region is entered after three host operations
  (a concatenation of three weight matrices along the rows, a transposition, a change of float format),
  runs a grid of 32 points over three windows, and at each point the body loads its two input blocks whole,
  computes one value from them and stores it over the whole output block.

  Stated here: what the buffers hold when the region is entered (`V`), what the body leaves in the output
  block as a function of the two input blocks (`out0_2`), the proof data of the pipeline (`dats`), the run to
  the library's frame post (`run_main`) and the argument arrays unchanged at the end (`frame`).
-/

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers when the region is entered -/

/-- What core `c`'s buffer `b` holds when the region is entered: the launch contents carried through the three
    host operations in order. -/
abbrev V (c : Dev nD) (b : Ref sig .tc) : Buf (Elt F) ((c : Thread nD τ).loc b) := StableHlo.after hostOps0 (fun b => m (c, b)) b

/-- None of the three host operations allocates a buffer. -/
theorem hostOps0_fresh : (hostOps0 : List (HloOp τ sig (Elt F))).Forall fun op => op.fresh = ∅ := by
  simp only [List.Forall]; repeat' constructor

/-- @main is the three host operations followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write `main_v0`, `main_v1` and `main_v2`, one each: any other buffer is found as launched. -/
theorem V_of_ne (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, Finset.mem_singleton]
    exact ⟨StableHlo.devRef_ne_of_ne h0, StableHlo.devRef_ne_of_ne h1, StableHlo.devRef_ne_of_ne h2⟩))

theorem V_main_arg0 (c : Dev nD) : V m c main_arg0 = m ((c : Thread nD τ).loc main_arg0) :=
  V_of_ne m c main_arg0 (by decide) (by decide) (by decide)
theorem V_main_arg1 (c : Dev nD) : V m c main_arg1 = m ((c : Thread nD τ).loc main_arg1) :=
  V_of_ne m c main_arg1 (by decide) (by decide) (by decide)
theorem V_main_arg2 (c : Dev nD) : V m c main_arg2 = m ((c : Thread nD τ).loc main_arg2) :=
  V_of_ne m c main_arg2 (by decide) (by decide) (by decide)
theorem V_main_arg3 (c : Dev nD) : V m c main_arg3 = m ((c : Thread nD τ).loc main_arg3) :=
  V_of_ne m c main_arg3 (by decide) (by decide) (by decide)

/-- The second window's array when the region is entered: the three weight matrices stacked along the rows,
    transposed, and brought to the narrower float format. -/
theorem V_main_v2 (c : Dev nD) :
    (V m c main_v2 : S128x384.Idx → Elt F .bf16)
      = truncf .bf16 (transpose S128x384 [1, 0]
          (concatenate S384x128 0 [⟨S128x128, m ((c : Thread nD τ).loc main_arg1)⟩, ⟨S128x128, m ((c : Thread nD τ).loc main_arg2)⟩,
            ⟨S128x128, m ((c : Thread nD τ).loc main_arg3)⟩] concatenates_S128x128_S128x128_S128x128_S384x128_d0)
          transposes_S384x128_S128x384_1_0) bitsLt_bf16_f32 := by
  dsimp only [V, hostOps0]
  simp only [StableHlo.after_cons, StableHlo.after_nil]
  rw [StableHlo.unary_result, StableHlo.unary_result, StableHlo.nary3_result]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first window's staging buffer holds its block at every point, for any proof data over the arrays `V` whose
    body leaves that block in place: a fetch puts the block there, and the window is fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  refine (dat.before_in_eq_fetched 0 rfl (fun _ => rfl) (fun _ _ _ => rfl) (fun t => ?_) t d).trans ?_
  · rw [hafter]; unfold Dat.blockOf iblk; rw [hA]; try rfl
  · unfold Dat.fetched Dat.blockOf iblk; rw [hA]; try rfl

/-- The second window's staging buffer holds its block at every point, although it is fetched at the first point
    only: its block index never moves, so the block fetched first is every later point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t := by
  refine (dat.before_in_eq_fetched 1 rfl (fun _ => rfl) (fun _ _ _ => rfl) (fun t => ?_) t d).trans ?_
  · rw [hafter]; unfold Dat.blockOf iblk; rw [hA]; try rfl
  · unfold Dat.fetched Dat.blockOf iblk; rw [hA]; try rfl

/-! ## The argument arrays at the end, from a run to the library's frame post -/

/-- For any proof data over the arrays `V`, a run to the frame post leaves the four argument arrays as launched:
    `main_arg0` is the first window's array, an input, which ends as the region found it; the three weight
    matrices are staged by no window and end as the region found them; and the region found all four as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c)⟩) h

/-! ## The body's accesses -/

/-- The whole of a 64 × 128 × 128 buffer: what the body loads of the first staging buffer, -/
abbrev r0_0 : Rect S64x128x128 := Rect.unit (s := S64x128x128) ![0, 0, 0] S64x128x128.size inb_S64x128x128_S64x128x128_0_0_0
/-- the whole of a 128 × 384 buffer: what it loads of the second, -/
abbrev r0_1 : Rect S128x384 := Rect.unit (s := S128x384) ![0, 0] S128x384.size inb_S128x384_S128x384_0_0
/-- and the whole of a 64 × 128 × 128 buffer again: what it stores over in the third. -/
abbrev r0_2 : Rect S64x128x128 := Rect.unit (s := S64x128x128) ![0, 0, 0] S64x128x128.size inb_S64x128x128_S64x128x128_0_0_0

/-! ## What the body leaves in the output window's buffer -/

/-- The output staging buffer after the body, from the two input blocks: its one store, of the body's one computed
    value, over the whole buffer. -/
def out0_2 (x0 : Vec F S64x128x128 .f32) (x1 : Vec F S128x384 .bf16) : Vec F S64x128x128 .f32 :=
  View.canon [⟨r0_2, k0_pay1 (View.ld x0 r0_0) (View.ld x1 r0_1)⟩]

/-- The one store's rectangle is the whole buffer, so it covers every index. -/
theorem cover0_2 (p0 : Vec F S64x128x128 .f32) (y : S64x128x128.Idx) :
    ∃ pc ∈ ([⟨r0_2, p0⟩] : List (View.Piece (Elt F) S64x128x128 .f32)), y ∈ pc.1.set :=
  View.cover_of_tiled [⟨r0_2, p0⟩] S64x128x128.size (by rfl) y

/-! ## The body's triple -/

set_option maxHeartbeats 1000000 in
/-- The kernel body on whole staging memrefs — the two inputs' at read contents `x0`, `x1`, the output's at any
    contents — runs to the continuation holding the inputs' as they were and the output's at `out0_2 x0 x1`. The
    body also loads the output buffer before it stores: that load reads whatever the buffer held and its value is
    used nowhere; after the store every index holds the stored value, the store's rectangle being the whole buffer. -/
theorem sound_kernel (c : Dev nD) (E : Set ℕ) (i : grid0.Coords)
    (arg1 : Memref sig .tc .vmem S64x128x128 .f32) (harg1 : arg1.IsWhole)
    (arg2 : Memref sig .tc .vmem S128x384 .bf16) (harg2 : arg2.IsWhole)
    (arg3 : Memref sig .tc .vmem S64x128x128 .f32) (harg3 : arg3.IsWhole)
    (x0 : Vec F S64x128x128 .f32) (x1 : Vec F S128x384 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__attn_kernel i arg1 harg1 arg2 harg2 arg3 harg3) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data of the pipeline on core `c`: the arrays as the region finds them; after the body at point `t`
    each input's buffer still at its block and the output's at `out0_2` of the two input blocks; the invariant the
    scoped rest and the generator register, untouched; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (the definition projected, `V` left folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`: the invariant, what the core owes, and the three current staging
    buffers whole, each at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the same, the buffers at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, the output's holds something, so the body's
    triple applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: every weakly fair execution of @main terminates, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.PayDefs.lean ====
/-
  The kernel body's arithmetic in three stretches: the fused projection of the block against the stacked, transposed
  weights (`fused`), its three column slices re-laid as [64, 128, 128] (`qOf`, `kOf`, `vOf`), and the attention
  proper over them (`tail`): scores, scale and causal bias, row maximum, exponentials, row sum, reciprocal, and the
  product with the values. The payload of the one store is their composition.
-/
import proofs.«409954_j19971597926571_3_alg».proof.Proof.Gen.KernelIdeal.Skeleton

set_option synthInstance.maxSize 4096

noncomputable section

namespace Cert.KernelIdeal.Pay

open Idealize.ShloMosaic Idealize.SL.Sem Cert.KernelIdeal Cert.KernelIdeal.Gen

variable {F : FTy → Type} [FloatOps F] [Named F]

/-- The block flattened to [8192, 128] against the [128, 384] weights: one matrix product into zero. -/
def fused (x0 : Vec F S64x128x128 .f32) (w : Vec F S128x384 .bf16) : FVec F S8192x384 .f32 :=
  matmul dot_S8192x128_S128x384_S8192x384_1_0_0_1_n_n none
    (shapeCast S8192x128 (truncf .bf16 x0 bitsLt_bf16_f32) shapeCasts_S64x128x128_S8192x128)
    (shapeCast S128x384 w shapeCasts_S128x384_S128x384) (constant S8192x384 .f32 0x00000000#32)

/-- Columns 0–127 of the fused product, re-laid as [64, 128, 128]. -/
def qOf (x0 : Vec F S64x128x128 .f32) (w : Vec F S128x384 .bf16) : FVec F S64x128x128 .bf16 :=
  shapeCast S64x128x128 (truncf .bf16 (extractStridedSlice S8192x128 ![0, 0] (fused x0 w) slices_S8192x384_o0_0_S8192x128) bitsLt_bf16_f32) shapeCasts_S8192x128_S64x128x128

/-- Columns 128–255. -/
def kOf (x0 : Vec F S64x128x128 .f32) (w : Vec F S128x384 .bf16) : FVec F S64x128x128 .bf16 :=
  shapeCast S64x128x128 (truncf .bf16 (extractStridedSlice S8192x128 ![0, 128] (fused x0 w) slices_S8192x384_o0_128_S8192x128) bitsLt_bf16_f32) shapeCasts_S8192x128_S64x128x128

/-- Columns 256–383. -/
def vOf (x0 : Vec F S64x128x128 .f32) (w : Vec F S128x384 .bf16) : FVec F S64x128x128 .bf16 :=
  shapeCast S64x128x128 (truncf .bf16 (extractStridedSlice S8192x128 ![0, 256] (fused x0 w) slices_S8192x384_o0_256_S8192x128) bitsLt_bf16_f32) shapeCasts_S8192x128_S64x128x128

/-- Attention over the three re-laid slices: `softmax(q kᵀ · scale + bias) v` with the weights formed as
    exponentials times the reciprocal of their row sum. -/
def tail (q k v : FVec F S64x128x128 .bf16) : FVec F S64x128x128 .f32 :=
  have cst_4 : FVec F S64x128x128 .f32 := constant S64x128x128 .f32 0x00000000#32
  have v15 : FVec F S64x128x128 .f32 := matmul dot_S64x128x128_S64x128x128_S64x128x128_2_2_1_1_0_0 none q k cst_4
  have v16 : IVec S128x128 32 := iota .tc S128x128 32 [0] iota_S128x128_d0_w32
  have v17 : IVec S128x128 32 := iota .tc S128x128 32 [1] iota_S128x128_d1_w32
  have v18 : IVec S128x128 1 := cmpi .sge v16 v17
  have cst_5 : F .f32 := Scalar.ofBits .f32 0x00000000#32
  have cst_6 : F .f32 := Named.named κ "neg_big" 0xFF333332#32
  have v19 : FVec F S128x128 .f32 := broadcast S128x128 cst_5
  have v20 : FVec F S128x128 .f32 := broadcast S128x128 cst_6
  have v21 : FVec F S128x128 .f32 := select v18 v19 v20
  have cst_7 : F .f32 := Scalar.ofBits .f32 0x3DB504F3#32
  have v22 : FVec F S64x128x128 .f32 := broadcast S64x128x128 cst_7
  have v23 : FVec F S64x128x128 .f32 := mulf v15 v22
  have v24 : FVec F S1x128x128 .f32 := shapeCast S1x128x128 v21 shapeCasts_S128x128_S1x128x128
  have v25 : FVec F S64x128x128 .f32 := broadcastTo S64x128x128 v24 broadcasts_S1x128x128_S64x128x128
  have v26 : FVec F S64x128x128 .f32 := addf v23 v25
  have v27 : FVec F S64x128 .f32 := multiReduction .maximumf [2] S64x128 v26 0xFF800000#32 reduces_S64x128x128_S64x128 (.inl rfl) rfl
  have v28 : FVec F S64x128x1 .f32 := shapeCast S64x128x1 v27 shapeCasts_S64x128_S64x128x1
  have v29 : FVec F S64x128x128 .f32 := broadcastTo S64x128x128 v28 broadcasts_S64x128x1_S64x128x128
  have v30 : FVec F S64x128x128 .f32 := subf v26 v29
  have v31 : FVec F S64x128x128 .f32 := exp v30
  have v32 : FVec F S64x128 .f32 := multiReduction .add [2] S64x128 v31 0x00000000#32 reduces_S64x128x128_S64x128 (.inl rfl) rfl
  have v33 : FVec F S64x128x1 .f32 := shapeCast S64x128x1 v32 shapeCasts_S64x128_S64x128x1
  have cst_10 : F .f32 := Scalar.ofBits .f32 0x3F800000#32
  have v34 : FVec F S64x128x1 .f32 := broadcast S64x128x1 cst_10
  have v35 : FVec F S64x128x1 .f32 := divf v34 v33
  have v36 : FVec F S64x128x128 .f32 := broadcastTo S64x128x128 v35 broadcasts_S64x128x1_S64x128x128
  have v37 : FVec F S64x128x128 .f32 := mulf v31 v36
  have v38 : FVec F S64x128x128 .bf16 := truncf .bf16 v37 bitsLt_bf16_f32
  have cst_11 : FVec F S64x128x128 .f32 := constant S64x128x128 .f32 0x00000000#32
  have v39 : FVec F S64x128x128 .f32 := matmul dot_S64x128x128_S64x128x128_S64x128x128_2_1_1_2_0_0 none v38 v cst_11
  v39

set_option maxRecDepth 65536 in
/-- The store's payload is the tail over the three slices of the fused projection. -/
theorem k0_pay1_eq (x0 : Vec F S64x128x128 .f32) (w : Vec F S128x384 .bf16) :
    k0_pay1 x0 w = tail (qOf x0 w) (kOf x0 w) (vOf x0 w) := rfl

end Cert.KernelIdeal.Pay

end
-- ==== Proof.AttnSpec.lean ====
/-
  Causal single-head attention of one batch element, as extended-real matrices indexed by literal `Fin 128`
  coordinates: the projections, the scaled scores, the causal mask in its two spellings (a selection against `⊥`,
  and the addition of a bias that is `0` on and below the diagonal and `⊥` above it), the row maximum, the
  exponentials, the row sum, and the two spellings of the normalisation (a quotient by the row sum, and a product
  with its reciprocal).
-/
import Idealize.ShloMosaic.PureOps.Ideal
import Mathlib.Algebra.BigOperators.Group.Finset.Basic
import Mathlib.Data.Finset.Fold

noncomputable section

namespace Cert.Attn

open Idealize.ShloMosaic

/-- A 128 × 128 matrix of extended reals. -/
abbrev Mat : Type := Fin 128 → Fin 128 → EReal

/-- A row of `xb` against a row of `w`: `(xb · wᵀ) t h = ∑ c, xb t c * w h c`. -/
def proj (xb w : Mat) : Mat := fun t h => ∑ c : Fin 128, xb t c * w h c

/-- The score scale: the f32 nearest `128^(-1/2)`, as the dyadic rational its pattern denotes. -/
def scale : EReal := Ideal.ofBits .f32 0x3DB504F3#32

/-- Scaled scores: `(q · kᵀ) t u · scale`. -/
def score (q k : Mat) : Mat := fun t u => (∑ h : Fin 128, q t h * k u h) * scale

/-- The causal mask as a selection: entries above the diagonal are `⊥`. -/
def maskSel (s : Mat) : Mat := fun t u => if u ≤ t then s t u else ⊥

/-- The causal mask as an added bias: `0` on and below the diagonal, `⊥` above it. -/
def maskAdd (s : Mat) : Mat := fun t u => s t u + (if u ≤ t then (0 : EReal) else ⊥)

/-- A row's maximum, as the fold of `max` from `⊥`. -/
def rowmax (a : Mat) (t : Fin 128) : EReal := (Finset.univ : Finset (Fin 128)).fold max ⊥ (fun u => a t u)

/-- The exponentials of a row shifted by its maximum. -/
def pexp (a : Mat) : Mat := fun t u => Ideal.exp (a t u - rowmax a t)

/-- Their sum along the row. -/
def rowsum (a : Mat) (t : Fin 128) : EReal := ∑ u : Fin 128, pexp a t u

/-- Softmax weights as quotients by the row sum, applied to `v`. -/
def attnDiv (a v : Mat) : Mat := fun t h => ∑ u : Fin 128, Ideal.div (pexp a t u) (rowsum a t) * v u h

/-- Softmax weights as products with the reciprocal of the row sum, applied to `v`. -/
def attnRecip (a v : Mat) : Mat := fun t h => ∑ u : Fin 128, (pexp a t u * Ideal.div 1 (rowsum a t)) * v u h

/-- Attention with the mask selected and the weights divided. -/
def attnRef (xb wq wk wv : Mat) : Mat := attnDiv (maskSel (score (proj xb wq) (proj xb wk))) (proj xb wv)

/-- Attention with the mask added and the weights multiplied by the reciprocal. -/
def attnKer (xb wq wk wv : Mat) : Mat := attnRecip (maskAdd (score (proj xb wq) (proj xb wk))) (proj xb wv)

end Cert.Attn

end
-- ==== Proof.PayProj.lean ====
/-
  The kernel body's first stretch read at an index, at the extended reals: the block [64, 128, 128] flattened to
  [8192, 128] (flat row p * 128 + t is the pair (p, t)), multiplied against the [128, 384] weights into zero, is at
  (p * 128 + t, j) the sum over c of x (p, t, c) * w (c, j); a slice of 128 columns at offset off re-laid as
  [64, 128, 128] reads at (p, t, h) column h + off, which is the projection of batch element p's rows against the
  matrix whose row h is column h + off of the weights. The stacked and transposed weights read at column h + 128 k,
  row c, are the k-th of the three stacked matrices at (h, c).
-/
import proofs.«409954_j19971597926571_3_alg».proof.Proof.PayDefs
import proofs.«409954_j19971597926571_3_alg».proof.Proof.AttnSpec
import Idealize.ShloMosaic.Lib.Pipeline.Value
import Idealize.ShloMosaic.Lib.ValueIdx
import Idealize.ShloMosaic.PureOps.Ideal.Laws

set_option synthInstance.maxSize 4096

noncomputable section

namespace Cert.KernelIdeal.PayProj

open Idealize.ShloMosaic Idealize.ShloMosaic.ValueIdx Cert.KernelIdeal Cert.KernelIdeal.Gen Cert.KernelIdeal.Pay

/-- Column \`h + off\` of the [128, 384] weights, as a matrix indexed (h, c). -/
def wcol (w : Vec Ideal S128x384 .bf16) (off : Nat) (hoff : off + 128 ≤ 384) : Cert.Attn.Mat :=
  fun h c => w (ix2 c (⟨h.val + off, by have := h.isLt; omega⟩ : Fin 384))

/-! ## The one matrix product's operand indices, axis by axis -/

theorem lhs_fused_0 (i : S8192x384.Idx) (q : dot_S8192x128_S128x384_S8192x384_1_0_0_1_n_n.contr.Idx) :
    (dot_S8192x128_S128x384_S8192x384_1_0_0_1_n_n.lhsIdx i q 0).val = (i 0).val := by
  unfold DotDims.lhsIdx
  rw [dif_neg (show ¬(0 : Fin S8192x128.rank) ∈ dot_S8192x128_S128x384_S8192x384_1_0_0_1_n_n.lhsBatch by decide),
    dif_pos (show (0 : Fin S8192x128.rank) ∈ dot_S8192x128_S128x384_S8192x384_1_0_0_1_n_n.lhsNonContracting by decide)]
  rfl
theorem lhs_fused_1 (i : S8192x384.Idx) (q : dot_S8192x128_S128x384_S8192x384_1_0_0_1_n_n.contr.Idx) :
    (dot_S8192x128_S128x384_S8192x384_1_0_0_1_n_n.lhsIdx i q 1).val = (q ⟨0, by decide⟩).val :=
  dot_S8192x128_S128x384_S8192x384_1_0_0_1_n_n.lhsIdx_val_of_single rfl i q
theorem rhs_fused_0 (i : S8192x384.Idx) (q : dot_S8192x128_S128x384_S8192x384_1_0_0_1_n_n.contr.Idx) :
    (dot_S8192x128_S128x384_S8192x384_1_0_0_1_n_n.rhsIdx i q 0).val = (q ⟨0, by decide⟩).val :=
  dot_S8192x128_S128x384_S8192x384_1_0_0_1_n_n.rhsIdx_val_of_single rfl i q
theorem rhs_fused_1 (i : S8192x384.Idx) (q : dot_S8192x128_S128x384_S8192x384_1_0_0_1_n_n.contr.Idx) :
    (dot_S8192x128_S128x384_S8192x384_1_0_0_1_n_n.rhsIdx i q 1).val = (i 1).val := by
  unfold DotDims.rhsIdx
  rw [dif_neg (show ¬(1 : Fin S128x384.rank) ∈ dot_S8192x128_S128x384_S8192x384_1_0_0_1_n_n.rhsBatch by decide),
    dif_pos (show (1 : Fin S128x384.rank) ∈ dot_S8192x128_S128x384_S8192x384_1_0_0_1_n_n.rhsNonContracting by decide)]
  rfl

/-- The flat row \`p * 128 + t\` of the [8192, 128] view. -/
abbrev flatRow (p : Fin 64) (t : Fin 128) : Fin 8192 := ⟨p.val * 128 + t.val, by have := p.isLt; have := t.isLt; omega⟩

/-- The fused product at flat row \`p * 128 + t\`, column \`j\`: the sum over the contracted axis of the block's
    row (p, t) against column \`j\` of the weights. -/
theorem fused_apply (x0 : Vec Ideal S64x128x128 .f32) (w : Vec Ideal S128x384 .bf16) (p : Fin 64) (t : Fin 128) (j : Fin 384) :
    fused (F := Ideal) x0 w (ix2 (flatRow p t) j) = ∑ c : Fin 128, x0 (ix3 p t c) * w (ix2 c j) := by
  unfold fused
  refine (Ideal.matmul_constant_zero_apply dot_S8192x128_S128x384_S8192x384_1_0_0_1_n_n none _ _ _).trans ?_
  rw [← Equiv.sum_comp (contrEquiv1 dot_S8192x128_S128x384_S8192x384_1_0_0_1_n_n 128 rfl rfl).symm]
  refine Finset.sum_congr rfl fun c _ => ?_
  have hc := contrEquiv1_symm_val dot_S8192x128_S128x384_S8192x384_1_0_0_1_n_n 128 rfl rfl c
  have el : dot_S8192x128_S128x384_S8192x384_1_0_0_1_n_n.lhsIdx (ix2 (flatRow p t) j)
      ((contrEquiv1 dot_S8192x128_S128x384_S8192x384_1_0_0_1_n_n 128 rfl rfl).symm c) = ix2 (flatRow p t) c :=
    funext fun a => Fin.ext (by
      match a with
      | ⟨0, _⟩ => exact lhs_fused_0 _ _
      | ⟨1, _⟩ => exact (lhs_fused_1 _ _).trans hc)
  have er : dot_S8192x128_S128x384_S8192x384_1_0_0_1_n_n.rhsIdx (ix2 (flatRow p t) j)
      ((contrEquiv1 dot_S8192x128_S128x384_S8192x384_1_0_0_1_n_n 128 rfl rfl).symm c) = ix2 c j :=
    funext fun a => Fin.ext (by
      match a with
      | ⟨0, _⟩ => exact (rhs_fused_0 _ _).trans hc
      | ⟨1, _⟩ => exact rhs_fused_1 _ _)
  rw [el, er, shapeCast_self]
  refine congrArg (· * w (ix2 c j)) ?_
  -- the flattened block at (p * 128 + t, c) is the block at (p, t, c)
  refine (shapeCast_apply _ _ (ix2 (flatRow p t) c) (ix3 p t c) ?_).trans rfl
  rw [Shape.rowMajor_val_three, Shape.rowMajor_val_two]
  show (p.val * 128 + t.val) * 128 + c.val = (p.val * 128 + t.val) * 128 + c.val
  rfl

/-- A slice of 128 columns of the fused product at offset \`off\`, re-laid as [64, 128, 128], is at (p, t, h) the
    projection of batch element \`p\` against the matrix whose row \`h\` is column \`h + off\` of the weights. -/
theorem slice_apply (x0 : Vec Ideal S64x128x128 .f32) (w : Vec Ideal S128x384 .bf16) (off : Nat) (hoff : off + 128 ≤ 384)
    (hs : S8192x384.Slices ![0, off] S8192x128) (p : Fin 64) (t h : Fin 128) :
    (shapeCast S64x128x128 (truncf .bf16 (extractStridedSlice S8192x128 ![0, off] (fused (F := Ideal) x0 w) hs) bitsLt_bf16_f32)
      shapeCasts_S8192x128_S64x128x128 : FVec Ideal S64x128x128 .bf16) (ix3 p t h)
      = Cert.Attn.proj (fun t c => x0 (ix3 p t c)) (wcol w off hoff) t h := by
  -- the re-laid slice at (p, t, h) is the slice at (p * 128 + t, h)
  refine (shapeCast_apply _ _ (ix3 p t h) (ix2 (flatRow p t) h) ?_).trans ?_
  · rw [Shape.rowMajor_val_three, Shape.rowMajor_val_two]
    show (p.val * 128 + t.val) * 128 + h.val = (p.val * 128 + t.val) * 128 + h.val
    rfl
  -- the format change is the identity; the slice at (r, h) is the product at (r, h + off)
  refine (truncf_apply (φ := .f32) (ψ := .bf16) _ bitsLt_bf16_f32 _).trans ?_
  refine (extractStridedSlice_apply _ _ hs _ (ix2 (flatRow p t) (⟨h.val + off, by have := h.isLt; omega⟩ : Fin 384))
    (fun a => match a with
      | ⟨0, _⟩ => by show p.val * 128 + t.val = 0 + (p.val * 128 + t.val); omega
      | ⟨1, _⟩ => by show h.val + off = off + h.val; omega)).trans ?_
  exact fused_apply x0 w p t _

theorem qOf_apply (x0 : Vec Ideal S64x128x128 .f32) (w : Vec Ideal S128x384 .bf16) (p : Fin 64) (t h : Fin 128) :
    qOf (F := Ideal) x0 w (ix3 p t h) = Cert.Attn.proj (fun t c => x0 (ix3 p t c)) (wcol w 0 (by omega)) t h :=
  slice_apply x0 w 0 (by omega) slices_S8192x384_o0_0_S8192x128 p t h

theorem kOf_apply (x0 : Vec Ideal S64x128x128 .f32) (w : Vec Ideal S128x384 .bf16) (p : Fin 64) (t h : Fin 128) :
    kOf (F := Ideal) x0 w (ix3 p t h) = Cert.Attn.proj (fun t c => x0 (ix3 p t c)) (wcol w 128 (by omega)) t h :=
  slice_apply x0 w 128 (by omega) slices_S8192x384_o0_128_S8192x128 p t h

theorem vOf_apply (x0 : Vec Ideal S64x128x128 .f32) (w : Vec Ideal S128x384 .bf16) (p : Fin 64) (t h : Fin 128) :
    vOf (F := Ideal) x0 w (ix3 p t h) = Cert.Attn.proj (fun t c => x0 (ix3 p t c)) (wcol w 256 (by omega)) t h :=
  slice_apply x0 w 256 (by omega) slices_S8192x384_o0_256_S8192x128 p t h

/-! ## The stacked, transposed weights read at a column -/

/-- The three [128, 128] matrices stacked along the rows and then transposed: at row \`c\`, column \`h + 128 k\`,
    the \`k\`-th matrix at (h, c). Stated for the piece \`k\` with its matrix \`wk\` and the rows \`pre = 128 k\` before it. -/
theorem wfused_piece (w1 w2 w3 : Vec Ideal S128x128 .f32) (c h : Fin 128) (k : Nat) (hk : k < 3) (wk : Vec Ideal S128x128 .f32)
    (hxk : ([⟨S128x128, w1⟩, ⟨S128x128, w2⟩, ⟨S128x128, w3⟩] : List ((s : Shape) × (s.Idx → Ideal .f32)))[k]'hk = ⟨S128x128, wk⟩)
    (pre : Nat) (hpre : pre = 128 * k) (hlt : h.val + pre < 384) :
    (truncf (F := Ideal) .bf16 (transpose S128x384 [1, 0] (concatenate S384x128 0 [⟨S128x128, w1⟩, ⟨S128x128, w2⟩, ⟨S128x128, w3⟩]
      concatenates_S128x128_S128x128_S128x128_S384x128_d0) transposes_S384x128_S128x384_1_0) bitsLt_bf16_f32 : Vec Ideal S128x384 .bf16)
      (ix2 c (⟨h.val + pre, hlt⟩ : Fin 384)) = wk (ix2 h c) := by
  -- the format change is the identity; the transpose at (c, r) is the stack at (r, c)
  refine (truncf_apply (φ := .f32) (ψ := .bf16) _ bitsLt_bf16_f32 _).trans ?_
  refine (transpose_apply _ _ transposes_S384x128_S128x384_1_0 _ (ix2 (⟨h.val + pre, hlt⟩ : Fin 384) c)
    (fun b => match b with | ⟨0, _⟩ => rfl | ⟨1, _⟩ => rfl)).trans ?_
  -- row h + 128 k of the stack is row h of piece k
  refine concatenate_apply_piece (0 : Fin S384x128.rank) ([⟨S128x128, w1⟩, ⟨S128x128, w2⟩, ⟨S128x128, w3⟩] : List ((s : Shape) × (s.Idx → Ideal .f32)))
    concatenates_S128x128_S128x128_S128x128_S384x128_d0 _ k hk S128x128 wk hxk rfl
    pre ?_ (ix2 h c) (fun b => match b with
      | ⟨0, _⟩ => fun hne => absurd rfl hne
      | ⟨1, _⟩ => fun _ => rfl) ?_
  · subst hpre
    match k, hk with
    | 0, _ => rfl
    | 1, _ => rfl
    | 2, _ => rfl
  · show pre + h.val = h.val + pre
    omega

theorem wfused_apply_0 (w1 w2 w3 : Vec Ideal S128x128 .f32) (c h : Fin 128) :
    (truncf (F := Ideal) .bf16 (transpose S128x384 [1, 0] (concatenate S384x128 0 [⟨S128x128, w1⟩, ⟨S128x128, w2⟩, ⟨S128x128, w3⟩]
      Gen.concatenates_S128x128_S128x128_S128x128_S384x128_d0) Gen.transposes_S384x128_S128x384_1_0) Gen.bitsLt_bf16_f32 : Vec Ideal S128x384 .bf16)
      (ix2 c (⟨h.val, by have := h.isLt; omega⟩ : Fin 384)) = w1 (ix2 h c) :=
  wfused_piece w1 w2 w3 c h 0 (by omega) w1 rfl 0 rfl (by have := h.isLt; omega)

theorem wfused_apply_1 (w1 w2 w3 : Vec Ideal S128x128 .f32) (c h : Fin 128) :
    (truncf (F := Ideal) .bf16 (transpose S128x384 [1, 0] (concatenate S384x128 0 [⟨S128x128, w1⟩, ⟨S128x128, w2⟩, ⟨S128x128, w3⟩]
      Gen.concatenates_S128x128_S128x128_S128x128_S384x128_d0) Gen.transposes_S384x128_S128x384_1_0) Gen.bitsLt_bf16_f32 : Vec Ideal S128x384 .bf16)
      (ix2 c (⟨h.val + 128, by have := h.isLt; omega⟩ : Fin 384)) = w2 (ix2 h c) :=
  wfused_piece w1 w2 w3 c h 1 (by omega) w2 rfl 128 rfl (by have := h.isLt; omega)

theorem wfused_apply_2 (w1 w2 w3 : Vec Ideal S128x128 .f32) (c h : Fin 128) :
    (truncf (F := Ideal) .bf16 (transpose S128x384 [1, 0] (concatenate S384x128 0 [⟨S128x128, w1⟩, ⟨S128x128, w2⟩, ⟨S128x128, w3⟩]
      Gen.concatenates_S128x128_S128x128_S128x128_S384x128_d0) Gen.transposes_S384x128_S128x384_1_0) Gen.bitsLt_bf16_f32 : Vec Ideal S128x384 .bf16)
      (ix2 c (⟨h.val + 256, by have := h.isLt; omega⟩ : Fin 384)) = w3 (ix2 h c) :=
  wfused_piece w1 w2 w3 c h 2 (by omega) w3 rfl 256 rfl (by have := h.isLt; omega)

end Cert.KernelIdeal.PayProj

end
-- ==== Proof.PayTail.lean ====
/-
  The attention stretch of the kernel body read at one element: the scores as a sum over the head
  dimension, the causal bias as zero on and below the diagonal and the bottom element above it, the row
  maximum as a fold of max, the exponentials, their row sum, the reciprocal, and the product with the
  values as a sum over the key positions.
-/
import proofs.«409954_j19971597926571_3_alg».proof.Proof.PayDefs
import proofs.«409954_j19971597926571_3_alg».proof.Proof.AttnSpec
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws
import Idealize.ShloMosaic.PureOps.IdealRules

set_option synthInstance.maxSize 4096

noncomputable section

namespace Cert.KernelIdeal.PayTail

open Idealize.ShloMosaic Idealize.ShloMosaic.ValueIdx Cert.KernelIdeal Cert.KernelIdeal.Gen Cert.KernelIdeal.Pay

/-! ## The two batched products read at an element -/

/-- The contraction index of the score product is one coordinate below 128. -/
abbrev eQK := contrEquiv1 dot_S64x128x128_S64x128x128_S64x128x128_2_2_1_1_0_0 128 rfl rfl

theorem qk_lhs_0 (i : S64x128x128.Idx) (c : dot_S64x128x128_S64x128x128_S64x128x128_2_2_1_1_0_0.contr.Idx) :
    (dot_S64x128x128_S64x128x128_S64x128x128_2_2_1_1_0_0.lhsIdx i c 0).val = (i 0).val := by
  unfold DotDims.lhsIdx
  rw [dif_pos (show (0 : Fin S64x128x128.rank) ∈ dot_S64x128x128_S64x128x128_S64x128x128_2_2_1_1_0_0.lhsBatch by decide)]
  rfl
theorem qk_lhs_1 (i : S64x128x128.Idx) (c : dot_S64x128x128_S64x128x128_S64x128x128_2_2_1_1_0_0.contr.Idx) :
    (dot_S64x128x128_S64x128x128_S64x128x128_2_2_1_1_0_0.lhsIdx i c 1).val = (i 1).val := by
  unfold DotDims.lhsIdx
  rw [dif_neg (show ¬(1 : Fin S64x128x128.rank) ∈ dot_S64x128x128_S64x128x128_S64x128x128_2_2_1_1_0_0.lhsBatch by decide), dif_pos (show (1 : Fin S64x128x128.rank) ∈ dot_S64x128x128_S64x128x128_S64x128x128_2_2_1_1_0_0.lhsNonContracting by decide)]
  rfl
theorem qk_lhs_2 (i : S64x128x128.Idx) (c : dot_S64x128x128_S64x128x128_S64x128x128_2_2_1_1_0_0.contr.Idx) :
    (dot_S64x128x128_S64x128x128_S64x128x128_2_2_1_1_0_0.lhsIdx i c 2).val = (c ⟨0, by decide⟩).val :=
  dot_S64x128x128_S64x128x128_S64x128x128_2_2_1_1_0_0.lhsIdx_val_of_single rfl i c
theorem qk_rhs_0 (i : S64x128x128.Idx) (c : dot_S64x128x128_S64x128x128_S64x128x128_2_2_1_1_0_0.contr.Idx) :
    (dot_S64x128x128_S64x128x128_S64x128x128_2_2_1_1_0_0.rhsIdx i c 0).val = (i 0).val := by
  unfold DotDims.rhsIdx
  rw [dif_pos (show (0 : Fin S64x128x128.rank) ∈ dot_S64x128x128_S64x128x128_S64x128x128_2_2_1_1_0_0.rhsBatch by decide)]
  rfl
theorem qk_rhs_1 (i : S64x128x128.Idx) (c : dot_S64x128x128_S64x128x128_S64x128x128_2_2_1_1_0_0.contr.Idx) :
    (dot_S64x128x128_S64x128x128_S64x128x128_2_2_1_1_0_0.rhsIdx i c 1).val = (i 2).val := by
  unfold DotDims.rhsIdx
  rw [dif_neg (show ¬(1 : Fin S64x128x128.rank) ∈ dot_S64x128x128_S64x128x128_S64x128x128_2_2_1_1_0_0.rhsBatch by decide), dif_pos (show (1 : Fin S64x128x128.rank) ∈ dot_S64x128x128_S64x128x128_S64x128x128_2_2_1_1_0_0.rhsNonContracting by decide)]
  rfl
theorem qk_rhs_2 (i : S64x128x128.Idx) (c : dot_S64x128x128_S64x128x128_S64x128x128_2_2_1_1_0_0.contr.Idx) :
    (dot_S64x128x128_S64x128x128_S64x128x128_2_2_1_1_0_0.rhsIdx i c 2).val = (c ⟨0, by decide⟩).val :=
  dot_S64x128x128_S64x128x128_S64x128x128_2_2_1_1_0_0.rhsIdx_val_of_single rfl i c

/-- The score product into zero at (p, t, u): the sum over the head coordinate of q(p, t, ·) against k(p, u, ·). -/
theorem qk_apply (q k : FVec Ideal S64x128x128 .bf16) (p : Fin 64) (t u : Fin 128) :
    matmul dot_S64x128x128_S64x128x128_S64x128x128_2_2_1_1_0_0 none q k (constant (F := Ideal) S64x128x128 .f32 0x00000000#32) (ix3 p t u)
      = ∑ h : Fin 128, q (ix3 p t h) * k (ix3 p u h) := by
  refine (Ideal.matmul_constant_zero_apply dot_S64x128x128_S64x128x128_S64x128x128_2_2_1_1_0_0 none q k (ix3 p t u)).trans ?_
  rw [← Equiv.sum_comp eQK.symm]
  refine Finset.sum_congr rfl fun h _ => ?_
  have hk := contrEquiv1_symm_val dot_S64x128x128_S64x128x128_S64x128x128_2_2_1_1_0_0 128 rfl rfl h
  have el : dot_S64x128x128_S64x128x128_S64x128x128_2_2_1_1_0_0.lhsIdx (ix3 p t u) (eQK.symm h) = ix3 p t h := funext fun a => Fin.ext (by
    match a with
    | ⟨0, _⟩ => exact qk_lhs_0 _ _
    | ⟨1, _⟩ => exact qk_lhs_1 _ _
    | ⟨2, _⟩ => exact (qk_lhs_2 _ _).trans hk)
  have er : dot_S64x128x128_S64x128x128_S64x128x128_2_2_1_1_0_0.rhsIdx (ix3 p t u) (eQK.symm h) = ix3 p u h := funext fun a => Fin.ext (by
    match a with
    | ⟨0, _⟩ => exact qk_rhs_0 _ _
    | ⟨1, _⟩ => exact qk_rhs_1 _ _
    | ⟨2, _⟩ => exact (qk_rhs_2 _ _).trans hk)
  rw [el, er]

/-- The contraction index of the value product is one coordinate below 128. -/
abbrev ePV := contrEquiv1 dot_S64x128x128_S64x128x128_S64x128x128_2_1_1_2_0_0 128 rfl rfl

theorem pv_lhs_0 (i : S64x128x128.Idx) (c : dot_S64x128x128_S64x128x128_S64x128x128_2_1_1_2_0_0.contr.Idx) :
    (dot_S64x128x128_S64x128x128_S64x128x128_2_1_1_2_0_0.lhsIdx i c 0).val = (i 0).val := by
  unfold DotDims.lhsIdx
  rw [dif_pos (show (0 : Fin S64x128x128.rank) ∈ dot_S64x128x128_S64x128x128_S64x128x128_2_1_1_2_0_0.lhsBatch by decide)]
  rfl
theorem pv_lhs_1 (i : S64x128x128.Idx) (c : dot_S64x128x128_S64x128x128_S64x128x128_2_1_1_2_0_0.contr.Idx) :
    (dot_S64x128x128_S64x128x128_S64x128x128_2_1_1_2_0_0.lhsIdx i c 1).val = (i 1).val := by
  unfold DotDims.lhsIdx
  rw [dif_neg (show ¬(1 : Fin S64x128x128.rank) ∈ dot_S64x128x128_S64x128x128_S64x128x128_2_1_1_2_0_0.lhsBatch by decide), dif_pos (show (1 : Fin S64x128x128.rank) ∈ dot_S64x128x128_S64x128x128_S64x128x128_2_1_1_2_0_0.lhsNonContracting by decide)]
  rfl
theorem pv_lhs_2 (i : S64x128x128.Idx) (c : dot_S64x128x128_S64x128x128_S64x128x128_2_1_1_2_0_0.contr.Idx) :
    (dot_S64x128x128_S64x128x128_S64x128x128_2_1_1_2_0_0.lhsIdx i c 2).val = (c ⟨0, by decide⟩).val :=
  dot_S64x128x128_S64x128x128_S64x128x128_2_1_1_2_0_0.lhsIdx_val_of_single rfl i c
theorem pv_rhs_0 (i : S64x128x128.Idx) (c : dot_S64x128x128_S64x128x128_S64x128x128_2_1_1_2_0_0.contr.Idx) :
    (dot_S64x128x128_S64x128x128_S64x128x128_2_1_1_2_0_0.rhsIdx i c 0).val = (i 0).val := by
  unfold DotDims.rhsIdx
  rw [dif_pos (show (0 : Fin S64x128x128.rank) ∈ dot_S64x128x128_S64x128x128_S64x128x128_2_1_1_2_0_0.rhsBatch by decide)]
  rfl
theorem pv_rhs_1 (i : S64x128x128.Idx) (c : dot_S64x128x128_S64x128x128_S64x128x128_2_1_1_2_0_0.contr.Idx) :
    (dot_S64x128x128_S64x128x128_S64x128x128_2_1_1_2_0_0.rhsIdx i c 1).val = (c ⟨0, by decide⟩).val :=
  dot_S64x128x128_S64x128x128_S64x128x128_2_1_1_2_0_0.rhsIdx_val_of_single rfl i c
theorem pv_rhs_2 (i : S64x128x128.Idx) (c : dot_S64x128x128_S64x128x128_S64x128x128_2_1_1_2_0_0.contr.Idx) :
    (dot_S64x128x128_S64x128x128_S64x128x128_2_1_1_2_0_0.rhsIdx i c 2).val = (i 2).val := by
  unfold DotDims.rhsIdx
  rw [dif_neg (show ¬(2 : Fin S64x128x128.rank) ∈ dot_S64x128x128_S64x128x128_S64x128x128_2_1_1_2_0_0.rhsBatch by decide), dif_pos (show (2 : Fin S64x128x128.rank) ∈ dot_S64x128x128_S64x128x128_S64x128x128_2_1_1_2_0_0.rhsNonContracting by decide)]
  rfl

/-- The value product into zero at (p, t, h): the sum over the key position of the weights (p, t, ·) against v(p, ·, h). -/
theorem pv_apply (w v : FVec Ideal S64x128x128 .bf16) (p : Fin 64) (t h : Fin 128) :
    matmul dot_S64x128x128_S64x128x128_S64x128x128_2_1_1_2_0_0 none w v (constant (F := Ideal) S64x128x128 .f32 0x00000000#32) (ix3 p t h)
      = ∑ u : Fin 128, w (ix3 p t u) * v (ix3 p u h) := by
  refine (Ideal.matmul_constant_zero_apply dot_S64x128x128_S64x128x128_S64x128x128_2_1_1_2_0_0 none w v (ix3 p t h)).trans ?_
  rw [← Equiv.sum_comp ePV.symm]
  refine Finset.sum_congr rfl fun u _ => ?_
  have hk := contrEquiv1_symm_val dot_S64x128x128_S64x128x128_S64x128x128_2_1_1_2_0_0 128 rfl rfl u
  have el : dot_S64x128x128_S64x128x128_S64x128x128_2_1_1_2_0_0.lhsIdx (ix3 p t h) (ePV.symm u) = ix3 p t u := funext fun a => Fin.ext (by
    match a with
    | ⟨0, _⟩ => exact pv_lhs_0 _ _
    | ⟨1, _⟩ => exact pv_lhs_1 _ _
    | ⟨2, _⟩ => exact (pv_lhs_2 _ _).trans hk)
  have er : dot_S64x128x128_S64x128x128_S64x128x128_2_1_1_2_0_0.rhsIdx (ix3 p t h) (ePV.symm u) = ix3 p u h := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-! ## Literals -/

/-- The pattern of negative infinity denotes the bottom element. -/
theorem ofBits_neg_inf : Ideal.ofBits .f32 0xFF800000#32 = ⊥ := by simp [Ideal.ofBits, Ideal.ieee]

/-- The pattern of 1.0 denotes one. -/
theorem ofBits_one : Ideal.ofBits .f32 0x3F800000#32 = 1 := IdealRules.sign_bit.ideal_onePat .f32

/-- The named mask constant is the bottom element, by the certificate's table. -/
theorem neg_big : Named.named (F := Ideal) κ "neg_big" (φ := .f32) 0xFF333332#32 = (⊥ : EReal) :=
  IdealRules.named_const.ideal_named_scalar _ _ _ _ rfl

/-! ## The causal bias -/

/-- Two coordinates below 128, as 32-bit words, compare signed as they compare as numbers. -/
theorem sge_coord (t u : Fin 128) :
    IntOp.cmpi .sge (BitVec.ofNat 32 t.val) (BitVec.ofNat 32 u.val) = if u ≤ t then 1#1 else 0#1 := by
  have ht : (BitVec.ofNat 32 t.val).toNat = t.val := by
    rw [BitVec.toNat_ofNat]; exact Nat.mod_eq_of_lt (by have := t.isLt; omega)
  have hu : (BitVec.ofNat 32 u.val).toNat = u.val := by
    rw [BitVec.toNat_ofNat]; exact Nat.mod_eq_of_lt (by have := u.isLt; omega)
  have key := StableHlo.Predicate.sge_iff_toNat (a := BitVec.ofNat 32 t.val) (b := BitVec.ofNat 32 u.val)
    (by rw [ht]; have := t.isLt; omega) (by rw [hu]; have := u.isLt; omega)
  rw [ht, hu] at key
  by_cases h : u ≤ t
  · rw [if_pos h]; exact key.mpr h
  · rw [if_neg h]; exact eq_zero_of_ne_one fun h1 => h (key.mp h1)

/-- The bias matrix at (t, u): zero on and below the diagonal, the bottom element above it. -/
theorem bias_apply (t u : Fin 128) :
    (select (cmpi .sge (iota .tc S128x128 32 [0] iota_S128x128_d0_w32) (iota .tc S128x128 32 [1] iota_S128x128_d1_w32))
        (broadcast S128x128 (Scalar.ofBits (F := Ideal) .f32 0x00000000#32))
        (broadcast S128x128 (Named.named (F := Ideal) κ "neg_big" (φ := .f32) 0xFF333332#32)) : FVec Ideal S128x128 .f32) (ix2 t u)
      = if u ≤ t then (0 : EReal) else ⊥ := by
  show Scalar.select (IntOp.cmpi .sge (iota .tc S128x128 32 [0] iota_S128x128_d0_w32 (ix2 t u)) (iota .tc S128x128 32 [1] iota_S128x128_d1_w32 (ix2 t u)))
      (Ideal.ofBits .f32 0x00000000#32) (Named.named (F := Ideal) κ "neg_big" (φ := .f32) 0xFF333332#32) = _
  rw [iota_single_apply, iota_single_apply, neg_big, Ideal.ofBits_zero_f32]
  show Scalar.select (IntOp.cmpi .sge (BitVec.ofNat 32 t.val) (BitVec.ofNat 32 u.val)) (0 : EReal) ⊥ = _
  rw [sge_coord]
  by_cases h : u ≤ t
  · rw [if_pos h, if_pos h]; exact select_one _ _
  · rw [if_neg h, if_neg h]; exact select_zero _ _

/-! ## The layout steps read at an element -/

section Layout
variable {α : Type}

/-- A [128, 128] matrix cast to [1, 128, 128] and broadcast over 64 batch rows reads, at (p, t, u), the matrix at (t, u). -/
theorem bcast_batch_apply (b : S128x128.Idx → α) (p : Fin 64) (t u : Fin 128) :
    broadcastTo S64x128x128 (shapeCast S1x128x128 b shapeCasts_S128x128_S1x128x128) broadcasts_S1x128x128_S64x128x128 (ix3 p t u)
      = b (ix2 t u) := by
  refine (broadcastTo_apply _ broadcasts_S1x128x128_S64x128x128 (ix3 p t u) (ix3 (0 : Fin 1) t u) fun a => ?_).trans
    (shapeCast_ab_1ab_apply b shapeCasts_S128x128_S1x128x128 0 t u)
  match a with
  | ⟨0, _⟩ => show (0 : Nat) = if (1 : Nat) = 1 then 0 else p.val; rw [if_pos rfl]
  | ⟨1, _⟩ => show t.val = if (128 : Nat) = 1 then 0 else t.val; rw [if_neg (by decide)]
  | ⟨2, _⟩ => show u.val = if (128 : Nat) = 1 then 0 else u.val; rw [if_neg (by decide)]

/-- A [64, 128] matrix cast to [64, 128, 1] reads, at (p, t, z), the matrix at (p, t). -/
theorem keep_apply (r : S64x128.Idx → α) (p : Fin 64) (t : Fin 128) (z : Fin 1) :
    shapeCast S64x128x1 r shapeCasts_S64x128_S64x128x1 (ix3 p t z) = r (ix2 p t) :=
  shapeCast_apply r shapeCasts_S64x128_S64x128x1 _ _ (by
    have hz : z.val = 0 := by omega
    rw [Shape.rowMajor_val_three, Shape.rowMajor_val_two]
    show p.val * 128 + t.val = (p.val * 128 + t.val) * 1 + z.val
    rw [hz, Nat.mul_one, Nat.add_zero])

/-- A [64, 128, 1] array broadcast along its last axis reads, at (p, t, u), the array at (p, t, 0). -/
theorem bcast_last_apply (x : S64x128x1.Idx → α) (p : Fin 64) (t u : Fin 128) :
    broadcastTo S64x128x128 x broadcasts_S64x128x1_S64x128x128 (ix3 p t u) = x (ix3 p t (0 : Fin 1)) := by
  refine broadcastTo_apply x broadcasts_S64x128x1_S64x128x128 (ix3 p t u) (ix3 p t (0 : Fin 1)) fun a => ?_
  match a with
  | ⟨0, _⟩ => show p.val = if (64 : Nat) = 1 then 0 else p.val; rw [if_neg (by decide)]
  | ⟨1, _⟩ => show t.val = if (128 : Nat) = 1 then 0 else t.val; rw [if_neg (by decide)]
  | ⟨2, _⟩ => show (0 : Nat) = if (1 : Nat) = 1 then 0 else u.val; rw [if_pos rfl]

end Layout

/-! ## The two row reductions -/

/-- The index a row reduction inserts the reduced coordinate into. -/
theorem lift_apply (p : Fin 64) (t u : Fin 128) :
    reduces_S64x128x128_S64x128.lift (ix2 p t) u = ix3 p t u :=
  funext fun a => Fin.ext (by
    match a with
    | ⟨0, _⟩ => rfl
    | ⟨1, _⟩ => rfl
    | ⟨2, _⟩ => rfl)

/-- The row maximum at (p, t): the fold of max from the bottom element over the row. -/
theorem rowmax_apply (s : FVec Ideal S64x128x128 .f32) (p : Fin 64) (t : Fin 128) :
    multiReduction .maximumf [2] S64x128 s 0xFF800000#32 reduces_S64x128x128_S64x128 (.inl rfl) rfl (ix2 p t)
      = (Finset.univ : Finset (Fin 128)).fold max ⊥ (fun u => s (ix3 p t u)) := by
  refine (Ideal.multiReduction_maximumf_single s 0xFF800000#32 reduces_S64x128x128_S64x128 (.inl rfl) rfl (ix2 p t)).trans ?_
  show (Finset.univ : Finset (Fin 128)).fold max (Ideal.ofBits .f32 0xFF800000#32) (fun u => s (reduces_S64x128x128_S64x128.lift (ix2 p t) u)) = _
  rw [ofBits_neg_inf]
  exact congrArg (fun f : Fin 128 → EReal => (Finset.univ : Finset (Fin 128)).fold max ⊥ f) (funext fun u => congrArg s (lift_apply p t u))

/-- The row sum at (p, t). -/
theorem rowsum_apply (e : FVec Ideal S64x128x128 .f32) (p : Fin 64) (t : Fin 128) :
    multiReduction .add [2] S64x128 e 0x00000000#32 reduces_S64x128x128_S64x128 (.inl rfl) rfl (ix2 p t)
      = ∑ u : Fin 128, e (ix3 p t u) := by
  refine (Ideal.multiReduction_add_single e 0x00000000#32 reduces_S64x128x128_S64x128 (.inl rfl) rfl (ix2 p t)).trans ?_
  show ∑ u : Fin 128, e (reduces_S64x128x128_S64x128.lift (ix2 p t) u) = _
  exact Finset.sum_congr rfl fun u _ => congrArg e (lift_apply p t u)

/-! ## The stretch in three named pieces -/

/-- The masked, scaled scores. -/
def logits (q k : FVec Ideal S64x128x128 .bf16) : FVec Ideal S64x128x128 .f32 :=
  addf
    (mulf (matmul dot_S64x128x128_S64x128x128_S64x128x128_2_2_1_1_0_0 none q k (constant S64x128x128 .f32 0x00000000#32))
      (broadcast S64x128x128 (Scalar.ofBits .f32 0x3DB504F3#32)))
    (broadcastTo S64x128x128
      (shapeCast S1x128x128
        (select (cmpi .sge (iota .tc S128x128 32 [0] iota_S128x128_d0_w32) (iota .tc S128x128 32 [1] iota_S128x128_d1_w32))
          (broadcast S128x128 (Scalar.ofBits .f32 0x00000000#32))
          (broadcast S128x128 (Named.named κ "neg_big" 0xFF333332#32)))
        shapeCasts_S128x128_S1x128x128)
      broadcasts_S1x128x128_S64x128x128)

/-- The exponentials of the rows shifted by their maxima. -/
def expShift (s : FVec Ideal S64x128x128 .f32) : FVec Ideal S64x128x128 .f32 :=
  exp (subf s
    (broadcastTo S64x128x128
      (shapeCast S64x128x1
        (multiReduction .maximumf [2] S64x128 s 0xFF800000#32 reduces_S64x128x128_S64x128 (.inl rfl) rfl)
        shapeCasts_S64x128_S64x128x1)
      broadcasts_S64x128x1_S64x128x128))

/-- The rows times the reciprocal of their sums. -/
def normalise (e : FVec Ideal S64x128x128 .f32) : FVec Ideal S64x128x128 .f32 :=
  mulf e
    (broadcastTo S64x128x128
      (divf (broadcast S64x128x1 (Scalar.ofBits .f32 0x3F800000#32))
        (shapeCast S64x128x1
          (multiReduction .add [2] S64x128 e 0x00000000#32 reduces_S64x128x128_S64x128 (.inl rfl) rfl)
          shapeCasts_S64x128_S64x128x1))
      broadcasts_S64x128x1_S64x128x128)

set_option maxRecDepth 65536 in
/-- The stretch is the value product of the normalised exponentials of the logits. -/
theorem tail_eq (q k v : FVec Ideal S64x128x128 .bf16) :
    tail (F := Ideal) q k v
      = matmul dot_S64x128x128_S64x128x128_S64x128x128_2_1_1_2_0_0 none
          (truncf .bf16 (normalise (expShift (logits q k))) bitsLt_bf16_f32) v (constant S64x128x128 .f32 0x00000000#32) := rfl

/-- The logits at (p, t, u): the scaled score plus the causal bias. -/
theorem logits_apply (q k : FVec Ideal S64x128x128 .bf16) (p : Fin 64) (t u : Fin 128) :
    logits q k (ix3 p t u)
      = Cert.Attn.maskAdd (Cert.Attn.score (fun t h => q (ix3 p t h)) (fun u h => k (ix3 p u h))) t u := by
  show matmul dot_S64x128x128_S64x128x128_S64x128x128_2_2_1_1_0_0 none q k (constant (F := Ideal) S64x128x128 .f32 0x00000000#32) (ix3 p t u)
        * Ideal.ofBits .f32 0x3DB504F3#32
      + broadcastTo S64x128x128
          (shapeCast S1x128x128
            (select (cmpi .sge (iota .tc S128x128 32 [0] iota_S128x128_d0_w32) (iota .tc S128x128 32 [1] iota_S128x128_d1_w32))
              (broadcast S128x128 (Scalar.ofBits (F := Ideal) .f32 0x00000000#32))
              (broadcast S128x128 (Named.named (F := Ideal) κ "neg_big" (φ := .f32) 0xFF333332#32)))
            shapeCasts_S128x128_S1x128x128)
          broadcasts_S1x128x128_S64x128x128 (ix3 p t u) = _
  rw [qk_apply, bcast_batch_apply, bias_apply]
  rfl

/-- The shifted exponentials at (p, t, u). -/
theorem expShift_apply (s : FVec Ideal S64x128x128 .f32) (p : Fin 64) (t u : Fin 128) :
    expShift s (ix3 p t u) = Cert.Attn.pexp (fun t u => s (ix3 p t u)) t u := by
  show Ideal.exp (s (ix3 p t u)
      - broadcastTo S64x128x128
          (shapeCast S64x128x1
            (multiReduction .maximumf [2] S64x128 s 0xFF800000#32 reduces_S64x128x128_S64x128 (.inl rfl) rfl)
            shapeCasts_S64x128_S64x128x1)
          broadcasts_S64x128x1_S64x128x128 (ix3 p t u)) = _
  rw [bcast_last_apply, keep_apply, rowmax_apply]
  rfl

/-- The normalised rows at (p, t, u). -/
theorem normalise_apply (e : FVec Ideal S64x128x128 .f32) (p : Fin 64) (t u : Fin 128) :
    normalise e (ix3 p t u) = e (ix3 p t u) * Ideal.div 1 (∑ u' : Fin 128, e (ix3 p t u')) := by
  show e (ix3 p t u)
      * broadcastTo S64x128x128
          (divf (broadcast S64x128x1 (Scalar.ofBits (F := Ideal) .f32 0x3F800000#32))
            (shapeCast S64x128x1
              (multiReduction .add [2] S64x128 e 0x00000000#32 reduces_S64x128x128_S64x128 (.inl rfl) rfl)
              shapeCasts_S64x128_S64x128x1))
          broadcasts_S64x128x1_S64x128x128 (ix3 p t u) = _
  rw [bcast_last_apply]
  show e (ix3 p t u)
      * Ideal.div (Ideal.ofBits .f32 0x3F800000#32)
          (shapeCast S64x128x1
            (multiReduction .add [2] S64x128 e 0x00000000#32 reduces_S64x128x128_S64x128 (.inl rfl) rfl)
            shapeCasts_S64x128_S64x128x1 (ix3 p t (0 : Fin 1))) = _
  rw [keep_apply, rowsum_apply, ofBits_one]

/-! ## The stretch at an element -/

/-- The attention stretch at (p, t, h) is the reciprocal-normalised causal attention of batch element p. -/
theorem tail_apply (q k v : FVec Ideal S64x128x128 .bf16) (p : Fin 64) (t h : Fin 128) :
    tail (F := Ideal) q k v (ix3 p t h)
      = Cert.Attn.attnRecip (Cert.Attn.maskAdd (Cert.Attn.score (fun t h => q (ix3 p t h)) (fun u h => k (ix3 p u h)))) (fun u h => v (ix3 p u h)) t h := by
  rw [tail_eq]
  refine (pv_apply _ v p t h).trans ?_
  have hl : (fun t u => logits q k (ix3 p t u))
      = Cert.Attn.maskAdd (Cert.Attn.score (fun t h => q (ix3 p t h)) (fun u h => k (ix3 p u h))) :=
    funext fun t' => funext fun u' => logits_apply q k p t' u'
  have he : ∀ u' : Fin 128, expShift (logits q k) (ix3 p t u')
      = Cert.Attn.pexp (Cert.Attn.maskAdd (Cert.Attn.score (fun t h => q (ix3 p t h)) (fun u h => k (ix3 p u h)))) t u' :=
    fun u' => (expShift_apply (logits q k) p t u').trans (by rw [hl])
  show ∑ u : Fin 128, normalise (expShift (logits q k)) (ix3 p t u) * v (ix3 p u h) = _
  refine Finset.sum_congr rfl fun u _ => ?_
  rw [normalise_apply, he u, Finset.sum_congr rfl fun u' _ => he u']
  rfl

end Cert.KernelIdeal.PayTail

end
-- ==== Proof.KernelValue.lean ====
/-
  The kernel program's result array as ONE function of its argument arrays. Grid point `t` handles batch rows
  `64 t … 64 t + 63`: its block of the first argument is those rows, its block of the stacked, transposed weights is the
  whole [128, 384] array — whose column `h`, `h + 128`, `h + 256` is row `h` of the first, second, third weight argument —
  and what it stores is, slab by slab, the attention of that batch row against the three weight matrices
  (`Cert.Attn.attnKer`). The 32 blocks tile the result array, so the array after the run is that function everywhere.
-/
import proofs.«409954_j19971597926571_3_alg».proof.Proof.FrameKI
import proofs.«409954_j19971597926571_3_alg».proof.Proof.PayProj
import proofs.«409954_j19971597926571_3_alg».proof.Proof.PayTail
import Idealize.ShloMosaic.Lib.Pipeline.Value
import Idealize.ShloMosaic.Lib.ValueIdx

set_option maxRecDepth 16384

noncomputable section

namespace Cert.KernelIdeal.KV
open Cert.KernelIdeal Cert.KernelIdeal.Gen Cert.KernelIdeal.Fr Cert.KernelIdeal.Pay Cert.KernelIdeal.PayProj Cert.KernelIdeal.PayTail
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The store's payload at an index of the block: attention of the block's row-slab `p` against the three column
    groups of the stacked weights. -/
theorem pay_apply (x0 : Vec Ideal S64x128x128 .f32) (w : Vec Ideal S128x384 .bf16) (p : Fin 64) (t h : Fin 128) :
    k0_pay1 (F := Ideal) x0 w (ix3 p t h)
      = Cert.Attn.attnKer (fun t c => x0 (ix3 p t c)) (wcol w 0 (by omega)) (wcol w 128 (by omega)) (wcol w 256 (by omega)) t h := by
  rw [k0_pay1_eq, tail_apply]
  unfold Cert.Attn.attnKer
  have hq : (fun t h => qOf (F := Ideal) x0 w (ix3 p t h)) = Cert.Attn.proj (fun t c => x0 (ix3 p t c)) (wcol w 0 (by omega)) :=
    funext fun t => funext fun h => qOf_apply x0 w p t h
  have hk : (fun u h => kOf (F := Ideal) x0 w (ix3 p u h)) = Cert.Attn.proj (fun t c => x0 (ix3 p t c)) (wcol w 128 (by omega)) :=
    funext fun t => funext fun h => kOf_apply x0 w p t h
  have hv : (fun u h => vOf (F := Ideal) x0 w (ix3 p u h)) = Cert.Attn.proj (fun t c => x0 (ix3 p t c)) (wcol w 256 (by omega)) :=
    funext fun t => funext fun h => vOf_apply x0 w p t h
  rw [hq, hk, hv]

/-- Attention of batch element `b` of the first argument against the three weight arguments, at row `t`, column `h`. -/
def Gat (c : Dev nD) (b : Fin 2048) (t h : Fin 128) : EReal :=
  Cert.Attn.attnKer
    (fun t c' => (m ((c : Thread nD τ).loc main_arg0) : S2048x128x128.Idx → EReal) (ix3 b t c'))
    (fun h c' => (m ((c : Thread nD τ).loc main_arg1) : S128x128.Idx → EReal) (ix2 h c'))
    (fun h c' => (m ((c : Thread nD τ).loc main_arg2) : S128x128.Idx → EReal) (ix2 h c'))
    (fun h c' => (m ((c : Thread nD τ).loc main_arg3) : S128x128.Idx → EReal) (ix2 h c')) t h

/-- The output array as one function of the argument arrays. -/
def G (c : Dev nD) : S2048x128x128.Idx → EReal := fun i =>
  Gat m c (⟨(i 0).val, (i 0).isLt⟩ : Fin 2048) (⟨(i 1).val, (i 1).isLt⟩ : Fin 128) (⟨(i 2).val, (i 2).isLt⟩ : Fin 128)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the first argument's and the output's blocks are slab `t` of the batch axis,
    the weights' block is the whole array. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem t_lt (t : Fin cfg0.N) : t.val < 32 := by
  have h := t.isLt
  have hN : cfg0.N = 32 := N_0
  omega

/-- Point `t`'s block of the first argument is batch rows `64 t … 64 t + 63`. -/
theorem xblk_read (c : Dev nD) (t : Fin cfg0.N) (p : Fin 64) (t1 c1 : Fin 128) :
    iblk m c 0 t (ix3 p t1 c1)
      = (m ((c : Thread nD τ).loc main_arg0) : S2048x128x128.Idx → EReal) (ix3 (⟨t.val * 64 + p.val, by have := t_lt t; have := p.isLt; omega⟩ : Fin 2048) t1 c1) := by
  show V m c main_arg0 (((cfg0.win 0).blk t).view.emb (ix3 p t1 c1)) = _
  rw [V_main_arg0 m c]
  refine congrArg _ ?_
  obtain ⟨e0, e1, e2, -⟩ := idx_facts t
  funext a; apply Fin.ext
  match a with
  | ⟨0, _⟩ => show win0_0.index t (0 : Fin 3) * 64 + 1 * p.val = t.val * 64 + p.val; omega
  | ⟨1, _⟩ => show win0_0.index t (1 : Fin 3) * 128 + 1 * t1.val = t1.val; omega
  | ⟨2, _⟩ => show win0_0.index t (2 : Fin 3) * 128 + 1 * c1.val = c1.val; omega

/-- The weights' block is the whole stacked, transposed array at every point. -/
theorem wblk_read (c : Dev nD) (t : Fin cfg0.N) (c1 : Fin 128) (j : Fin 384) :
    iblk m c 1 t (ix2 c1 j) = (V m c main_v2 : S128x384.Idx → Elt Ideal .bf16) (ix2 c1 j) := by
  show V m c main_v2 (((cfg0.win 1).blk t).view.emb (ix2 c1 j)) = _
  refine congrArg _ ?_
  obtain ⟨-, -, -, e3, e4, -⟩ := idx_facts t
  funext a; apply Fin.ext
  match a with
  | ⟨0, _⟩ => show win0_1.index t (0 : Fin 2) * 128 + 1 * c1.val = c1.val; omega
  | ⟨1, _⟩ => show win0_1.index t (1 : Fin 2) * 384 + 1 * j.val = j.val; omega

theorem wcol0 (c : Dev nD) (t : Fin cfg0.N) :
    wcol (iblk m c 1 t) 0 (by omega) = fun h c' => (m ((c : Thread nD τ).loc main_arg1) : S128x128.Idx → EReal) (ix2 h c') := by
  funext h c1
  unfold wcol
  rw [wblk_read, V_main_v2 m c]
  exact wfused_apply_0 _ _ _ c1 h
theorem wcol1 (c : Dev nD) (t : Fin cfg0.N) :
    wcol (iblk m c 1 t) 128 (by omega) = fun h c' => (m ((c : Thread nD τ).loc main_arg2) : S128x128.Idx → EReal) (ix2 h c') := by
  funext h c1
  unfold wcol
  rw [wblk_read, V_main_v2 m c]
  exact wfused_apply_1 _ _ _ c1 h
theorem wcol2 (c : Dev nD) (t : Fin cfg0.N) :
    wcol (iblk m c 1 t) 256 (by omega) = fun h c' => (m ((c : Thread nD τ).loc main_arg3) : S128x128.Idx → EReal) (ix2 h c') := by
  funext h c1
  unfold wcol
  rw [wblk_read, V_main_v2 m c]
  exact wfused_apply_2 _ _ _ c1 h

/-- What point `t` writes back is block `t` of `G`. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz3]
  simp only [View.ld_unit_zero (S := S64x128x128) hz3, View.ld_unit_zero (S := S128x384) hz2]
  funext j
  obtain ⟨p, t', h, rfl⟩ : ∃ (p : Fin 64) (t' h : Fin 128), j = ix3 p t' h := ⟨j 0, j 1, j 2, eq_ix3 j⟩
  show k0_pay1 (iblk m c 0 t) (iblk m c 1 t) (ix3 p t' h) = G m c (((cfg0.win 2).blk t).view.emb (ix3 p t' h))
  refine (pay_apply _ _ p t' h).trans ?_
  rw [wcol0, wcol1, wcol2]
  have hA : (fun t1 c1 => iblk m c 0 t (ix3 p t1 c1))
      = fun t1 c1 => (m ((c : Thread nD τ).loc main_arg0) : S2048x128x128.Idx → EReal) (ix3 (⟨t.val * 64 + p.val, by have := t_lt t; have := p.isLt; omega⟩ : Fin 2048) t1 c1) :=
    funext fun t1 => funext fun c1 => xblk_read m c t p t1 c1
  rw [hA]
  obtain ⟨-, -, -, -, -, e5, e6, e7⟩ := idx_facts t
  have b0 : (⟨((((cfg0.win 2).blk t).view.emb (ix3 p t' h)) 0).val, ((((cfg0.win 2).blk t).view.emb (ix3 p t' h)) 0).isLt⟩ : Fin 2048)
      = ⟨t.val * 64 + p.val, by have := t_lt t; have := p.isLt; omega⟩ :=
    Fin.ext (by show win0_2.index t (0 : Fin 3) * 64 + 1 * p.val = t.val * 64 + p.val; omega)
  have b1 : (⟨((((cfg0.win 2).blk t).view.emb (ix3 p t' h)) 1).val, ((((cfg0.win 2).blk t).view.emb (ix3 p t' h)) 1).isLt⟩ : Fin 128) = t' :=
    Fin.ext (by show win0_2.index t (1 : Fin 3) * 128 + 1 * t'.val = t'.val; omega)
  have b2 : (⟨((((cfg0.win 2).blk t).view.emb (ix3 p t' h)) 2).val, ((((cfg0.win 2).blk t).view.emb (ix3 p t' h)) 2).isLt⟩ : Fin 128) = h :=
    Fin.ext (by show win0_2.index t (2 : Fin 3) * 128 + 1 * h.val = h.val; omega)
  show _ = Gat m c _ _ _
  rw [b0, b1, b2]
  rfl

/-- An index of the output array is in point `t`'s block iff each coordinate is in the block's range. -/
theorem mem_blk (t : Fin cfg0.N) (i : S2048x128x128.Idx) :
    i ∈ ((cfg0.win 2).blk t).view.set ↔ ∀ a : Fin 3, win0_2.index t a * S64x128x128.size a ≤ (i a).val ∧ (i a).val < win0_2.index t a * S64x128x128.size a + S64x128x128.size a := by
  show i ∈ ((View.whole main_v3).slice (win0_2.rect t)).set ↔ _
  rw [View.set_slice_whole, Rect.mem_set_unit]
  exact Iff.rfl

/-- Every index of the output array lies in the block of the point its batch row belongs to. -/
theorem cover (i : S2048x128x128.Idx) : ∃ t : Fin cfg0.N, (cfg0.win 2).flush t = true ∧ i ∈ ((cfg0.win 2).blk t).view.set := by
  have hi0 : (i 0).val < 2048 := (i 0).isLt
  have hi1 : (i 1).val < 128 := (i 1).isLt
  have hi2 : (i 2).val < 128 := (i 2).isLt
  have hN : cfg0.N = 32 := N_0
  refine ⟨⟨(i 0).val / 64, by omega⟩, flush0_2 _, ?_⟩
  rw [mem_blk]
  obtain ⟨-, -, -, -, -, e5, e6, e7⟩ := idx_facts ⟨(i 0).val / 64, by omega⟩
  intro a
  match a with
  | ⟨0, _⟩ =>
    show win0_2.index ⟨(i 0).val / 64, _⟩ (0 : Fin 3) * 64 ≤ (i 0).val ∧ (i 0).val < win0_2.index ⟨(i 0).val / 64, _⟩ (0 : Fin 3) * 64 + 64
    rw [e5]; show (i 0).val / 64 * 64 ≤ (i 0).val ∧ (i 0).val < (i 0).val / 64 * 64 + 64; omega
  | ⟨1, _⟩ =>
    show win0_2.index ⟨(i 0).val / 64, _⟩ (1 : Fin 3) * 128 ≤ (i 1).val ∧ (i 1).val < win0_2.index ⟨(i 0).val / 64, _⟩ (1 : Fin 3) * 128 + 128
    rw [e6]; omega
  | ⟨2, _⟩ =>
    show win0_2.index ⟨(i 0).val / 64, _⟩ (2 : Fin 3) * 128 ≤ (i 2).val ∧ (i 2).val < win0_2.index ⟨(i 0).val / 64, _⟩ (2 : Fin 3) * 128 + 128
    rw [e7]; omega

/-- The output array after the run is `G` of the argument arrays. -/
theorem final (c : Dev nD) : (dats m 0 c).arrAt 2 cfg0.N = G m c :=
  (dats m 0 c).arrAt_eq_of_cover 2 (G m c) (fun t _ => flushed_eq m c t) cover

/-- The kernel program's run, read: the result array at `G`, the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.KV

end
-- ==== Proof.RefSpec.lean ====
/-
  The reference's result, element by element, is causal single-head attention of one batch element.
  For batch `b`, with `xb t c = x (b, t, c)`: the three projections are `∑ c, xb t c * W h c`; the scaled score at
  `(t, u)` is `(∑ h, q t h * k u h)` times the scale constant; the lower-triangle condition compares the row and the
  column as 32-bit words, which below 128 is `u ≤ t`, and selects the score or minus infinity (the bottom element);
  the row maximum is the fold of `max` from the bottom element (and one more `max` with the bottom element changes
  nothing); each exponential of the shifted score is divided by the row's sum of exponentials (the sum started from
  the zero constant); the result at `(t, h)` is `∑ u, weight t u * v u h`.
-/
import proofs.«409954_j19971597926571_3_alg».proof.Proof.Gen.ReferenceIdeal.Read
import proofs.«409954_j19971597926571_3_alg».proof.Proof.AttnSpec
import Idealize.ShloMosaic.Lib.ValueIdx
import Idealize.ShloMosaic.PureOps.Ideal.Laws
import Idealize.ShloMosaic.PureOps.Reduce
import Idealize.ShloMosaic.Lib.StableHlo.Predicate

noncomputable section

namespace Cert.ReferenceIdeal.RefSpec

open Idealize.ShloMosaic Idealize.ShloMosaic.ValueIdx Cert.ReferenceIdeal Cert.ReferenceIdeal.Gen Cert.ReferenceIdeal.Read Cert.Attn

/-! ## The index maps of the generated reads, at coordinates -/

theorem lidx_v0 (b : Fin 2048) (t h c : Fin 128) : lidx_main_v0 (ix3 b t h) c = ix3 b t c := by
  funext a; match a with | ⟨0, _⟩ => rfl | ⟨1, _⟩ => rfl | ⟨2, _⟩ => rfl
theorem ridx_v0 (b : Fin 2048) (t h c : Fin 128) : ridx_main_v0 (ix3 b t h) c = ix2 h c := by
  funext a; match a with | ⟨0, _⟩ => rfl | ⟨1, _⟩ => rfl
theorem lidx_v1 (b : Fin 2048) (t h c : Fin 128) : lidx_main_v1 (ix3 b t h) c = ix3 b t c := by
  funext a; match a with | ⟨0, _⟩ => rfl | ⟨1, _⟩ => rfl | ⟨2, _⟩ => rfl
theorem ridx_v1 (b : Fin 2048) (t h c : Fin 128) : ridx_main_v1 (ix3 b t h) c = ix2 h c := by
  funext a; match a with | ⟨0, _⟩ => rfl | ⟨1, _⟩ => rfl
theorem lidx_v2 (b : Fin 2048) (t h c : Fin 128) : lidx_main_v2 (ix3 b t h) c = ix3 b t c := by
  funext a; match a with | ⟨0, _⟩ => rfl | ⟨1, _⟩ => rfl | ⟨2, _⟩ => rfl
theorem ridx_v2 (b : Fin 2048) (t h c : Fin 128) : ridx_main_v2 (ix3 b t h) c = ix2 h c := by
  funext a; match a with | ⟨0, _⟩ => rfl | ⟨1, _⟩ => rfl
theorem lidx_v3 (b : Fin 2048) (t u h : Fin 128) : lidx_main_v3 (ix3 b t u) h = ix3 b t h := by
  funext a; match a with | ⟨0, _⟩ => rfl | ⟨1, _⟩ => rfl | ⟨2, _⟩ => rfl
theorem ridx_v3 (b : Fin 2048) (t u h : Fin 128) : ridx_main_v3 (ix3 b t u) h = ix3 b u h := by
  funext a; match a with | ⟨0, _⟩ => rfl | ⟨1, _⟩ => rfl | ⟨2, _⟩ => rfl
theorem idx_mask (b : Fin 2048) (t u : Fin 128) : idx_main_call1_v1 (ix3 b t u) = ix2 t u := by
  funext a; match a with | ⟨0, _⟩ => rfl | ⟨1, _⟩ => rfl
theorem idx_v12_v13 (b : Fin 2048) (t u : Fin 128) : idx_main_v12 (idx_main_v13 (ix3 b t u)) = ix2 b t := by
  funext a; match a with | ⟨0, _⟩ => rfl | ⟨1, _⟩ => rfl
theorem idx_v17_v18 (b : Fin 2048) (t u : Fin 128) : idx_main_v17 (idx_main_v18 (ix3 b t u)) = ix2 b t := by
  funext a; match a with | ⟨0, _⟩ => rfl | ⟨1, _⟩ => rfl
theorem idx_v16 (b : Fin 2048) (t u : Fin 128) : idx_main_v16 (ix2 b t) u = ix3 b t u := by
  funext a; match a with | ⟨0, _⟩ => rfl | ⟨1, _⟩ => rfl | ⟨2, _⟩ => rfl
theorem lidx_v20 (b : Fin 2048) (t h u : Fin 128) : lidx_main_v20 (ix3 b t h) u = ix3 b t u := by
  funext a; match a with | ⟨0, _⟩ => rfl | ⟨1, _⟩ => rfl | ⟨2, _⟩ => rfl
theorem ridx_v20 (b : Fin 2048) (t h u : Fin 128) : ridx_main_v20 (ix3 b t h) u = ix3 b u h := by
  funext a; match a with | ⟨0, _⟩ => rfl | ⟨1, _⟩ => rfl | ⟨2, _⟩ => rfl

/-- The pattern of minus infinity denotes the bottom element. -/
theorem ofBits_neg_inf : Ideal.ofBits .f32 0xFF800000#32 = (⊥ : EReal) := by
  simp [Ideal.ofBits, Ideal.ieee]

variable (x0 : (⟨S2048x128x128, .f32⟩ : BufTy).Contents (Elt Ideal)) (x1 x2 x3 : (⟨S128x128, .f32⟩ : BufTy).Contents (Elt Ideal))

/-! ## The three projections -/

theorem v0_eq (b : Fin 2048) (t h : Fin 128) :
    val_main_v0 x0 x1 (ix3 b t h) = proj (fun t c => x0 (ix3 b t c)) (fun h c => x1 (ix2 h c)) t h := by
  rw [val_main_v0_apply]
  unfold proj
  refine Finset.sum_congr rfl fun c _ => ?_
  rw [lidx_v0, ridx_v0]

theorem v1_eq (b : Fin 2048) (t h : Fin 128) :
    val_main_v1 x0 x2 (ix3 b t h) = proj (fun t c => x0 (ix3 b t c)) (fun h c => x2 (ix2 h c)) t h := by
  rw [val_main_v1_apply]
  unfold proj
  refine Finset.sum_congr rfl fun c _ => ?_
  rw [lidx_v1, ridx_v1]

theorem v2_eq (b : Fin 2048) (t h : Fin 128) :
    val_main_v2 x0 x3 (ix3 b t h) = proj (fun t c => x0 (ix3 b t c)) (fun h c => x3 (ix2 h c)) t h := by
  rw [val_main_v2_apply]
  unfold proj
  refine Finset.sum_congr rfl fun c _ => ?_
  rw [lidx_v2, ridx_v2]

/-! ## The scaled scores -/

theorem v5_eq (b : Fin 2048) (t u : Fin 128) :
    val_main_v5 x0 x1 x2 (ix3 b t u)
      = score (proj (fun t c => x0 (ix3 b t c)) (fun h c => x1 (ix2 h c)))
          (proj (fun t c => x0 (ix3 b t c)) (fun h c => x2 (ix2 h c))) t u := by
  rw [val_main_v5_apply, val_main_v3_apply, val_main_v4_apply, val_main_cst_apply]
  unfold score scale
  show (∑ k : Fin 128, _) * Ideal.ofBits .f32 0x3DB504F3#32 = _
  refine congrArg (· * Ideal.ofBits .f32 0x3DB504F3#32) (Finset.sum_congr rfl fun k _ => ?_)
  rw [lidx_v3, ridx_v3, v0_eq, v1_eq]

/-! ## The causal mask -/

/-- The lower-triangle bit at row `t`, column `u`: set exactly when `u ≤ t`. -/
theorem tril_bit (t u : Fin 128) :
    val_main_v7 (F := Ideal) (ix2 t u) = if u ≤ t then 1#1 else 0#1 := by
  rw [val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply]
  show Scalar.select (IntOp.cmpi .sge (IntOp.addi (BitVec.ofNat 32 t.val) 0#32) (BitVec.ofNat 32 u.val)) 1#1 0#1 = _
  have ht : (BitVec.ofNat 32 t.val).toNat = t.val := by
    rw [BitVec.toNat_ofNat]; exact Nat.mod_eq_of_lt (by have := t.isLt; omega)
  have hu : (BitVec.ofNat 32 u.val).toNat = u.val := by
    rw [BitVec.toNat_ofNat]; exact Nat.mod_eq_of_lt (by have := u.isLt; omega)
  have h0 : IntOp.addi (BitVec.ofNat 32 t.val) 0#32 = BitVec.ofNat 32 t.val := BitVec.add_zero _
  rw [h0]
  have key : IntOp.cmpi .sge (BitVec.ofNat 32 t.val) (BitVec.ofNat 32 u.val) = 1#1 ↔ u ≤ t := by
    rw [StableHlo.Predicate.sge_iff_toNat (by rw [ht]; have := t.isLt; omega) (by rw [hu]; have := u.isLt; omega), ht, hu]
    exact Fin.le_def.symm
  by_cases hut : u ≤ t
  · rw [if_pos hut, key.mpr hut, select_one]
  · rw [if_neg hut, eq_zero_of_ne_one (fun e => hut (key.mp e)), select_zero]

theorem v8_eq (b : Fin 2048) (t u : Fin 128) :
    val_main_v8 x0 x1 x2 (ix3 b t u)
      = maskSel (score (proj (fun t c => x0 (ix3 b t c)) (fun h c => x1 (ix2 h c)))
          (proj (fun t c => x0 (ix3 b t c)) (fun h c => x2 (ix2 h c)))) t u := by
  rw [val_main_v8_apply, val_main_call1_v1_apply, idx_mask, tril_bit, val_main_call1_v2_apply, val_main_call1_v0_apply,
    val_main_cst_0_apply, v5_eq]
  unfold maskSel
  show Scalar.select _ _ (Ideal.ofBits .f32 0xFF800000#32) = _
  rw [ofBits_neg_inf]
  by_cases hut : u ≤ t
  · rw [if_pos hut, if_pos hut, select_one]
  · rw [if_neg hut, if_neg hut, select_zero]

/-! ## The row maximum -/

/-- Row `(b, t)` of the reduced shape with coordinate `k` put back on the last axis is `(b, t, k)`. -/
theorem lift_ix3 (h : S2048x128x128.Reduces [2] S2048x128) (b : Fin 2048) (t : Fin 128)
    (k : Fin (S2048x128x128.size 2)) : h.lift (ix2 b t) k = ix3 b t (⟨k.val, k.isLt⟩ : Fin 128) := by
  funext c; apply Fin.ext
  fin_cases c <;> rfl

theorem reduces_d2 : S2048x128x128.Reduces [2] S2048x128 := by decide

theorem v9_eq (b : Fin 2048) (t : Fin 128) :
    val_main_v9 x0 x1 x2 (ix2 b t)
      = rowmax (maskSel (score (proj (fun t c => x0 (ix3 b t c)) (fun h c => x1 (ix2 h c)))
          (proj (fun t c => x0 (ix3 b t c)) (fun h c => x2 (ix2 h c))))) t := by
  unfold val_main_v9
  rw [Host.reduce_eq_fold_single FloatOps.maximumf _ _ reducesTo_S2048x128x128_S2048x128_d2 reduces_d2 h_S_]
  unfold rowmax
  have hf : (val_main_v8 x0 x1 x2 ∘ reduces_d2.lift (ix2 b t))
      = fun u : Fin 128 => maskSel (score (proj (fun t c => x0 (ix3 b t c)) (fun h c => x1 (ix2 h c)))
          (proj (fun t c => x0 (ix3 b t c)) (fun h c => x2 (ix2 h c)))) t u :=
    funext fun k => by
      show val_main_v8 x0 x1 x2 (reduces_d2.lift (ix2 b t) k) = _
      rw [lift_ix3, v8_eq]
      rfl
  rw [hf, val_main_cst_1_apply]
  show Finset.fold max (Ideal.ofBits .f32 0xFF800000#32) _ _ = _
  rw [ofBits_neg_inf]
  rfl

theorem v11_eq (b : Fin 2048) (t : Fin 128) :
    val_main_v11 x0 x1 x2 (ix2 b t)
      = rowmax (maskSel (score (proj (fun t c => x0 (ix3 b t c)) (fun h c => x1 (ix2 h c)))
          (proj (fun t c => x0 (ix3 b t c)) (fun h c => x2 (ix2 h c))))) t := by
  rw [val_main_v11_apply, val_main_v10_apply, val_main_cst_2_apply, v9_eq]
  show max (Ideal.ofBits .f32 0xFF800000#32) _ = _
  rw [ofBits_neg_inf]
  exact max_eq_right bot_le

/-! ## The exponentials, their row sum, the weights -/

theorem v15_eq (b : Fin 2048) (t u : Fin 128) :
    val_main_v15 x0 x1 x2 (ix3 b t u)
      = pexp (maskSel (score (proj (fun t c => x0 (ix3 b t c)) (fun h c => x1 (ix2 h c)))
          (proj (fun t c => x0 (ix3 b t c)) (fun h c => x2 (ix2 h c))))) t u := by
  rw [val_main_v15_apply, val_main_v14_apply, val_main_v13_apply, val_main_v12_apply, idx_v12_v13, v11_eq, v8_eq]
  rfl

theorem v16_eq (b : Fin 2048) (t : Fin 128) :
    val_main_v16 x0 x1 x2 (ix2 b t)
      = rowsum (maskSel (score (proj (fun t c => x0 (ix3 b t c)) (fun h c => x1 (ix2 h c)))
          (proj (fun t c => x0 (ix3 b t c)) (fun h c => x2 (ix2 h c))))) t := by
  rw [val_main_v16_apply, val_main_cst_3_apply]
  show Ideal.ofBits .f32 0x00000000#32 + _ = _
  rw [Ideal.ofBits_zero_f32, zero_add]
  unfold rowsum
  refine Finset.sum_congr rfl fun u _ => ?_
  rw [idx_v16, v15_eq]

theorem v19_eq (b : Fin 2048) (t u : Fin 128) :
    val_main_v19 x0 x1 x2 (ix3 b t u)
      = Ideal.div (pexp (maskSel (score (proj (fun t c => x0 (ix3 b t c)) (fun h c => x1 (ix2 h c)))
          (proj (fun t c => x0 (ix3 b t c)) (fun h c => x2 (ix2 h c))))) t u)
          (rowsum (maskSel (score (proj (fun t c => x0 (ix3 b t c)) (fun h c => x1 (ix2 h c)))
          (proj (fun t c => x0 (ix3 b t c)) (fun h c => x2 (ix2 h c))))) t) := by
  rw [val_main_v19_apply, val_main_v18_apply, val_main_v17_apply, idx_v17_v18, v16_eq, v15_eq]
  rfl

/-! ## The result -/

theorem val_eq (x0 : (⟨S2048x128x128, .f32⟩ : BufTy).Contents (Elt Ideal)) (x1 x2 x3 : (⟨S128x128, .f32⟩ : BufTy).Contents (Elt Ideal)) (b : Fin 2048) (t h : Fin 128) :
    Cert.ReferenceIdeal.Read.val_main_v20 x0 x1 x2 x3 (ix3 b t h)
      = Cert.Attn.attnRef (fun t c => x0 (ix3 b t c)) (fun h c => x1 (ix2 h c)) (fun h c => x2 (ix2 h c)) (fun h c => x3 (ix2 h c)) t h := by
  rw [val_main_v20_apply]
  unfold attnRef attnDiv
  refine Finset.sum_congr rfl fun u _ => ?_
  rw [lidx_v20, ridx_v20, v19_eq, v2_eq]

end Cert.ReferenceIdeal.RefSpec

end
-- ==== Proof.FiniteIn.lean ====
/-
  From the certificate's precondition to the finiteness of every input entry.  The precondition is the conjunction,
  over the four float inputs, of `all (|v| < +∞)`; each `all` is a reduction by `and` over every axis, started at 1.
  Read in the extended reals, `|v| = max v (-v)` and `+∞ = ⊤`, so `|v| < ⊤` says exactly that `v` is neither `⊤` nor `⊥`.
-/
import proofs.«409954_j19971597926571_3_alg».proof.Proof.Gen.Pre_finite_inputs
import Idealize.ShloMosaic.Lib.ReduceAll
import Idealize.ShloMosaic.Lib.ValueIdx
import Idealize.ShloMosaic.PureOps.Ideal

namespace Cert.Attn.FiniteIn

open Idealize.ShloMosaic

/-- The rank-0 shape has one index. -/
instance subsingleton_scalar_idx : Subsingleton Cert.Pre_finite_inputs.S_.Idx :=
  ⟨fun a b => funext fun d => d.elim0⟩

/-- The f32 pattern `0x7F800000` denotes `+∞`. -/
theorem ofBits_inf : Ideal.ofBits .f32 0x7F800000#32 = (⊤ : EReal) := by
  simp [Ideal.ofBits, Ideal.ieee]

/-- An extended real whose absolute value `max x (-x)` lies strictly below `⊤` is neither infinity. -/
theorem finite_of_abs_lt_top (x : EReal) (h : max x (-x) < ⊤) : x ≠ ⊤ ∧ x ≠ ⊥ := by
  refine ⟨?_, ?_⟩
  · rintro rfl
    simp at h
  · rintro rfl
    simp at h

/-- The word of a Boolean is 1 exactly when the Boolean is true. -/
theorem ofBool_eq_one {b : Bool} : BitVec.ofBool b = 1#1 ↔ b = true := by cases b <;> decide

/-- One entry of the compared array: `|v i| < +∞` came out true, so `v i` is finite.  The broadcast of the rank-0
    constant reads the same pattern at every index. -/
theorem entry_finite {s : Shape} (dims : Fin Cert.Pre_finite_inputs.S_.rank → Fin s.rank)
    (hb : Cert.Pre_finite_inputs.S_.BroadcastsInDim s dims) (v : FVec Ideal s .f32) (i : s.Idx)
    (h : cmpf .olt (Host.absf v)
      (broadcastInDim s dims hb (constant (F := Ideal) Cert.Pre_finite_inputs.S_ .f32 0x7F800000#32)) i = 1#1) :
    v i ≠ ⊤ ∧ v i ≠ ⊥ := by
  have h' : BitVec.ofBool (decide (max (v i) (-(v i)) < Ideal.ofBits .f32 0x7F800000#32)) = 1#1 := h
  rw [ofBits_inf] at h'
  exact finite_of_abs_lt_top (v i) (of_decide_eq_true (ofBool_eq_one.1 h'))

/-- The precondition holds (its one word is 1): the four conjuncts each hold, each `all` gives its comparison at
    every index, and each comparison gives the finiteness of the entry it reads. -/
theorem finite_of_pre (x : FVec Ideal Cert.Pre_finite_inputs.S2048x128x128 .f32)
    (w1 w2 w3 : FVec Ideal Cert.Pre_finite_inputs.S128x128 .f32)
    (h : Cert.Pre_finite_inputs.fn (F := Ideal) x w1 w2 w3 = fun _ => 1#1) :
    (∀ i, x i ≠ ⊤ ∧ x i ≠ ⊥) ∧ (∀ i, w1 i ≠ ⊤ ∧ w1 i ≠ ⊥) ∧ (∀ i, w2 i ≠ ⊤ ∧ w2 i ≠ ⊥) ∧
      (∀ i, w3 i ≠ ⊤ ∧ w3 i ≠ ⊥) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨hx, h1⟩ := IntOp.andi_eq_one.1 h01
  refine ⟨fun i => ?_, fun i => ?_, fun i => ?_, fun i => ?_⟩
  · exact entry_finite _ _ x i (Host.reduce_andi_all _ _ _ _ _ hx i)
  · exact entry_finite _ _ w1 i (Host.reduce_andi_all _ _ _ _ _ h1 i)
  · exact entry_finite _ _ w2 i (Host.reduce_andi_all _ _ _ _ _ h2 i)
  · exact entry_finite _ _ w3 i (Host.reduce_andi_all _ _ _ _ _ h3 i)

end Cert.Attn.FiniteIn
-- ==== Proof.AttnAlgebra.lean ====
/-
  The two spellings of causal attention agree on finite inputs. Adding the bias `0` / `⊥` to a score is selecting the
  score or `⊥`, on every extended real (`x + 0 = x`, `x + ⊥ = ⊥`). A product with the reciprocal of the row sum is
  the quotient by it as soon as the row sum is not zero; and it is not zero when the scores are finite: the diagonal
  entry is unmasked, so the row maximum is a real number, the diagonal's exponential is positive, and every other
  exponential is nonnegative.
-/
import proofs.«409954_j19971597926571_3_alg».proof.Proof.AttnSpec
import Mathlib.Data.EReal.Operations
import Mathlib.Algebra.Order.BigOperators.Group.Finset

noncomputable section

namespace Cert.Attn

open Idealize.ShloMosaic

/-- An extended real that is a real number. -/
def IsFin (x : EReal) : Prop := x ≠ ⊤ ∧ x ≠ ⊥

theorem isFin_coe (r : ℝ) : IsFin (r : EReal) := ⟨EReal.coe_ne_top r, EReal.coe_ne_bot r⟩

theorem isFin_mul {a b : EReal} (ha : IsFin a) (hb : IsFin b) : IsFin (a * b) := by
  lift a to ℝ using ha
  lift b to ℝ using hb
  rw [← EReal.coe_mul]; exact isFin_coe _

theorem isFin_add {a b : EReal} (ha : IsFin a) (hb : IsFin b) : IsFin (a + b) := by
  lift a to ℝ using ha
  lift b to ℝ using hb
  rw [← EReal.coe_add]; exact isFin_coe _

theorem isFin_sub {a b : EReal} (ha : IsFin a) (hb : IsFin b) : IsFin (a - b) := by
  lift a to ℝ using ha
  lift b to ℝ using hb
  rw [← EReal.coe_sub]; exact isFin_coe _

theorem isFin_sum {ι : Type} (s : Finset ι) (f : ι → EReal) (h : ∀ i ∈ s, IsFin (f i)) : IsFin (∑ i ∈ s, f i) := by
  classical
  induction s using Finset.induction_on with
  | empty => rw [Finset.sum_empty]; exact isFin_coe 0
  | insert a s ha ih =>
    rw [Finset.sum_insert ha]
    exact isFin_add (h _ (Finset.mem_insert_self _ _)) (ih fun i hi => h i (Finset.mem_insert_of_mem hi))

/-- The scale's pattern has a biased exponent other than 255: it denotes a real number. -/
theorem isFin_scale : IsFin scale := by
  unfold scale Ideal.ofBits Ideal.ieee
  simp only []
  split_ifs with h1 h2 h3 h4
  all_goals first
    | exact isFin_coe _
    | exact absurd h1 (by decide)

theorem isFin_proj {xb w : Mat} (hx : ∀ t c, IsFin (xb t c)) (hw : ∀ h c, IsFin (w h c)) (t h : Fin 128) :
    IsFin (proj xb w t h) :=
  isFin_sum _ _ fun c _ => isFin_mul (hx t c) (hw h c)

theorem isFin_score {q k : Mat} (hq : ∀ t h, IsFin (q t h)) (hk : ∀ u h, IsFin (k u h)) (t u : Fin 128) :
    IsFin (score q k t u) :=
  isFin_mul (isFin_sum _ _ fun h _ => isFin_mul (hq t h) (hk u h)) isFin_scale

/-- Adding the causal bias is selecting against `⊥`. -/
theorem maskAdd_eq_maskSel (s : Mat) : maskAdd s = maskSel s := by
  funext t u
  unfold maskAdd maskSel
  split_ifs
  · exact add_zero _
  · exact EReal.add_bot _

theorem exp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

theorem exp_pos_of_isFin {x : EReal} (h : IsFin x) : 0 < Ideal.exp x := by
  lift x to ℝ using h
  rw [Ideal.exp_coe]; exact_mod_cast Real.exp_pos x

/-- With finite scores a masked row's exponentials do not sum to zero. -/
theorem rowsum_maskSel_ne_zero (s : Mat) (hs : ∀ t u, IsFin (s t u)) (t : Fin 128) : rowsum (maskSel s) t ≠ 0 := by
  have hatt : maskSel s t t = s t t := if_pos le_rfl
  have hge : maskSel s t t ≤ rowmax (maskSel s) t :=
    (Finset.le_fold_max (s := Finset.univ) (f := fun u => maskSel s t u) (b := ⊥) (c := maskSel s t t)).mpr (Or.inr ⟨t, Finset.mem_univ _, le_rfl⟩)
  have hbot : rowmax (maskSel s) t ≠ ⊥ := fun h =>
    (hs t t).2 (by rw [← hatt]; exact le_bot_iff.mp (h ▸ hge))
  have htop : rowmax (maskSel s) t ≠ ⊤ :=
    ne_of_lt ((Finset.fold_max_lt (s := Finset.univ) (f := fun u => maskSel s t u) (b := ⊥) (c := ⊤)).mpr ⟨bot_lt_top, fun u _ => by
      show maskSel s t u < ⊤
      unfold maskSel
      split_ifs
      · exact lt_top_iff_ne_top.mpr (hs t u).1
      · exact bot_lt_top⟩)
  have hfin : IsFin (maskSel s t t - rowmax (maskSel s) t) := isFin_sub (hatt ▸ hs t t) ⟨htop, hbot⟩
  have hpos : 0 < pexp (maskSel s) t t := exp_pos_of_isFin hfin
  have hle : pexp (maskSel s) t t ≤ rowsum (maskSel s) t :=
    Finset.single_le_sum (f := fun u => pexp (maskSel s) t u) (fun u _ => exp_nonneg _) (Finset.mem_univ t)
  exact (lt_of_lt_of_le hpos hle).ne'

/-- Off a zero row sum, the product with the reciprocal is the quotient. -/
theorem attnRecip_eq_attnDiv (a v : Mat) (hl : ∀ t, rowsum a t ≠ 0) : attnRecip a v = attnDiv a v := by
  funext t h
  unfold attnRecip attnDiv
  refine Finset.sum_congr rfl fun u _ => ?_
  unfold Ideal.div
  rw [if_neg (hl t), if_neg (hl t), one_mul]

/-- On finite inputs (the values' weights need not be) the two spellings are one matrix. -/
theorem attnKer_eq_attnRef (xb wq wk wv : Mat) (hx : ∀ t c, IsFin (xb t c)) (hq : ∀ h c, IsFin (wq h c))
    (hk : ∀ h c, IsFin (wk h c)) : attnKer xb wq wk wv = attnRef xb wq wk wv := by
  unfold attnKer attnRef
  rw [maskAdd_eq_maskSel]
  exact attnRecip_eq_attnDiv _ _ (rowsum_maskSel_ne_zero _ fun t u =>
    isFin_score (isFin_proj hx hq) (isFin_proj hx hk) t u)

end Cert.Attn

end
-- ==== Proof.lean ====
/-
  The certificate's claims. The kernel computes causal single-head attention of 2048 batch rows, 64 rows to a grid
  point: one fused projection of the rows against the stacked, transposed weights, sliced into queries, keys and
  values; scores scaled and given the causal bias (`0` on and below the diagonal, the named constant `⊥` above it);
  a softmax spelt as exponentials of the row shifted by its maximum, times the reciprocal of their sum; the product
  with the values. The reference projects with three separate contractions, masks by selecting against `-∞`, and
  divides by the row sum. Index by index both are the matrices of `Cert.Attn`: the reference's result is `attnRef`,
  the kernel's is `attnKer`, and on finite inputs the two agree — adding the bias is selecting (`x + 0 = x`,
  `x + ⊥ = ⊥`), and since the diagonal score is a real number the row sum is not zero, so the product with its
  reciprocal is the quotient by it. The frames: each kernel program runs through its pipeline with its arguments
  unchanged; the reference's frame is its run with the result dropped. `preserves` is the named constant's statement.
-/
import proofs.«409954_j19971597926571_3_alg».proof.Defs
import proofs.«409954_j19971597926571_3_alg».proof.Proof.Gen.Kernel
import proofs.«409954_j19971597926571_3_alg».proof.Proof.Gen.KernelIdeal
import proofs.«409954_j19971597926571_3_alg».proof.Proof.Gen.ReferenceIdeal
import proofs.«409954_j19971597926571_3_alg».proof.Proof.Gen.Pre_finite_inputs
import proofs.«409954_j19971597926571_3_alg».proof.Proof.Gen.ReferenceIdeal.Run
import proofs.«409954_j19971597926571_3_alg».proof.Proof.Gen.ReferenceIdeal.Read
import proofs.«409954_j19971597926571_3_alg».proof.Proof.FrameK
import proofs.«409954_j19971597926571_3_alg».proof.Proof.FrameKI
import proofs.«409954_j19971597926571_3_alg».proof.Proof.KernelValue
import proofs.«409954_j19971597926571_3_alg».proof.Proof.RefSpec
import proofs.«409954_j19971597926571_3_alg».proof.Proof.FiniteIn
import proofs.«409954_j19971597926571_3_alg».proof.Proof.AttnAlgebra
import Idealize.ShloMosaic.PureOps.IdealRules
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the finite stand-in for `-∞` is named `⊥`. -/
theorem preserves : Cert.preserves_Kernel_KernelIdeal :=
  IdealRules.named_const.statement Cert.KernelIdeal.κ "neg_big" .f32 0xFF333332#32 ⊥ rfl

/-- The reference's result array, on arguments that are the kernel's, is the kernel's function of them: both are
    attention of each batch row, in the two spellings that agree on finite inputs. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v20 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.KV.G m c := by
  obtain ⟨hx, h1, h2, -⟩ := Cert.Attn.FiniteIn.finite_of_pre _ _ _ _ (hpre c)
  funext i
  obtain ⟨b, t, h, rfl⟩ : ∃ (b : Fin 2048) (t h : Fin 128), i = ix3 b t h := ⟨i 0, i 1, i 2, eq_ix3 i⟩
  rw [Cert.ReferenceIdeal.RefSpec.val_eq]
  show _ = Cert.KernelIdeal.KV.Gat m c b t h
  unfold Cert.KernelIdeal.KV.Gat
  exact (congrFun (congrFun (Cert.Attn.attnKer_eq_attnRef _ _ _ _ (fun t c' => hx _) (fun h c' => h1 _) (fun h c' => h2 _)) t) h).symm

theorem algebraic : Cert.algebraic_KernelIdeal_ReferenceIdeal := by
  intro m ρ m' ρ' hpre hagree
  refine ⟨fun c => Cert.KernelIdeal.KV.G m c, Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2]
  exact result_eq m hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
